-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x800000 : Shape := ⟨2, ![2, 800000]⟩
abbrev S800000x16 : Shape := ⟨2, ![800000, 16]⟩
abbrev S64x64 : Shape := ⟨2, ![64, 64]⟩
abbrev S200000 : Shape := ⟨1, ![200000]⟩
abbrev S192x256 : Shape := ⟨2, ![192, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x64 : S_.BroadcastsInDim S64x64 (![] : Fin 0 → Fin S64x64.rank)
  reducesTo_S64x64_S_d0_1 : S64x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg4 : IVec S200000 32) (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S200000 32 := broadcastInDim S200000 ![] bcast_S_S200000 main_c_16
  let main_v45 : IVec S200000 1 := cmpi .sge main_arg4 main_v44
  let main_c_17 : IVec S_ 32 := constantI S_ 32 64#32
  let main_v46 : IVec S200000 32 := broadcastInDim S200000 ![] bcast_S_S200000 main_c_17
  let main_v47 : IVec S200000 1 := cmpi .slt main_arg4 main_v46
  let main_v48 : IVec S200000 1 := andi main_v45 main_v47
  let main_c_18 : IVec S_ 1 := constantI S_ 1 1#1
  let main_v49 : IVec S_ 1 := (fun x v => Host.reduce IntOp.andi x v reducesTo_S200000_S_d0 h_S_) main_v48 main_c_18
  let main_v50 : IVec S_ 1 := andi main_v43 main_v49
  main_v50

def fn_part1 {F : FTy → Type} [FloatOps F] (main_arg4 : IVec S200000 32) (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S192x256 1) : IVec S_ 1 :=
  let main_c_5 : IVec S_ 1 := constantI S_ 1 1#1
  let main_v17 : IVec S_ 1 := (fun x v => Host.reduce IntOp.andi x v reducesTo_S192x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg4 main_arg9 main_arg10 main_v33

def fn {F : FTy → Type} [FloatOps F] (main_arg0 : FVec F S200000x128 .f32) (main_arg1 : IVec S2x800000 32) (main_arg2 : FVec F S800000x16 .f32) (main_arg3 : FVec F S64x64 .f32) (main_arg4 : IVec S200000 32) (main_arg5 : FVec F S192x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x256 .f32 := Host.absf main_arg5
  let main_cst_4 : FVec F S_ .f32 := constant S_ .f32 0x7F800000#32
  let main_v15 : FVec F S192x256 .f32 := broadcastInDim S192x256 ![] bcast_S_S192x256 main_cst_4
  let main_v16 : IVec S192x256 1 := cmpf .olt main_v14 main_v15
  fn_part1 (F := F) main_arg4 main_arg6 main_arg7 main_arg8 main_arg9 main_arg10 main_v13 main_v16
-- ==== Kernel.lean ====
abbrev S200000x128 : Shape := ⟨2, ![200000, 128]⟩
abbrev S2x800000 : Shape := ⟨2, ![2, 800000]⟩
abbrev S800000x16 : Shape := ⟨2, ![800000, 16]⟩
abbrev S64x64 : Shape := ⟨2, ![64, 64]⟩
abbrev S200000 : Shape := ⟨1, ![200000]⟩
abbrev S192x256 : Shape := ⟨2, ![192, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S25x8000 : Shape := ⟨2, ![25, 8000]⟩
abbrev S128x256 : Shape := ⟨2, ![128, 256]⟩
abbrev S64x256 : Shape := ⟨2, ![64, 256]⟩
abbrev S1x256 : Shape := ⟨2, ![1, 256]⟩
abbrev S1x128 : Shape := ⟨2, ![1, 128]⟩
abbrev S8000x128 : Shape := ⟨2, ![8000, 128]⟩
abbrev S1x8000 : Shape := ⟨2, ![1, 8000]⟩
abbrev S8000x1 : Shape := ⟨2, ![8000, 1]⟩
abbrev S8000x64 : Shape := ⟨2, ![8000, 64]⟩
abbrev S8000x192 : Shape := ⟨2, ![8000, 192]⟩
abbrev S8000x256 : Shape := ⟨2, ![8000, 256]⟩

abbrev nBuf : Space → Nat
  | .hbm => 23
  | .vmem => 11
  | .smem => 0
  | _ => 0

abbrev bufTy : (tb : Table) → Fin (tcTables nBuf tb) → BufTy
  | .hbm, ⟨0, _⟩ => ⟨S200000x128, .f32⟩
  | .hbm, ⟨1, _⟩ => ⟨S2x800000, .i32⟩
  | .hbm, ⟨2, _⟩ => ⟨S800000x16, .f32⟩
  | .hbm, ⟨3, _⟩ => ⟨S64x64, .f32⟩
  | .hbm, ⟨4, _⟩ => ⟨S200000, .i32⟩
  | .hbm, ⟨5, _⟩ => ⟨S192x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S25x8000, .i32⟩
  | .hbm, ⟨12, _⟩ => ⟨S128x256, .f32⟩
  | .hbm, ⟨13, _⟩ => ⟨S64x256, .f32⟩
  | .hbm, ⟨14, _⟩ => ⟨S64x256, .f32⟩
  | .hbm, ⟨15, _⟩ => ⟨S192x256, .f32⟩
  | .hbm, ⟨16, _⟩ => ⟨S192x256, .bf16⟩
  | .hbm, ⟨17, _⟩ => ⟨S256x256, .bf16⟩
  | .hbm, ⟨18, _⟩ => ⟨S256x128, .bf16⟩
  | .hbm, ⟨19, _⟩ => ⟨S1x256, .f32⟩
  | .hbm, ⟨20, _⟩ => ⟨S1x256, .f32⟩
  | .hbm, ⟨21, _⟩ => ⟨S1x128, .f32⟩
  | .hbm, ⟨22, _⟩ => ⟨S200000x128, .f32⟩
  | .local _ .vmem, ⟨0, _⟩ => ⟨S8000x128, .f32⟩
  | .local _ .vmem, ⟨1, _⟩ => ⟨S8000x128, .f32⟩
  | .local _ .vmem, ⟨2, _⟩ => ⟨S25x8000, .i32⟩
  | .local _ .vmem, ⟨3, _⟩ => ⟨S192x256, .bf16⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let v1 : Index := Scalar.indexCast arg0
  let c0_1 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x8000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S200000_S25x8000 : S200000.ShapeCasts S25x8000
  slices_S192x256_S128x256_0_0 : S192x256.Slices ![0, 0] S128x256
  slices_S192x256_S64x256_128_0 : S192x256.Slices ![128, 0] S64x256
  concatenates_S128x256_S64x256_S192x256_d0 : Shape.Concatenates [S128x256, S64x256] S192x256 0
  bitsLt_bf16_f32 : FTy.bits .bf16 < FTy.bits .f32
  shapeCasts_S256_S1x256 : S256.ShapeCasts S1x256
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  h_S1x8000 : 0 < S1x8000.numel
  shapeCasts_S1x8000_S1x8000 : S1x8000.ShapeCasts S1x8000
  transposes_S1x8000_p1_0_S8000x1 : S1x8000.Transposes [1, 0] S8000x1
  iota_S8000x64_d1_w32 : S8000x64.Iotas .tc 32 [1]
  broadcasts_S8000x1_S8000x64 : S8000x1.Broadcasts S8000x64
  natLt_1_32 : 1 < 32
  concatenates_S8000x128_S8000x64_S8000x192_d1 : Shape.Concatenates [S8000x128, S8000x64] S8000x192 1
  inb_S192x256_S192x256_0_0 : ∀ a, (![0, 0] : Fin 2 → Nat) a + S192x256.size a ≤ S192x256.size a
  h_S192x256 : 0 < S192x256.numel
  shapeCasts_S192x256_S192x256 : S192x256.ShapeCasts S192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  dot_S64x64_S64x256_S64x256_1_0_0_1_n_n_wf : DotDims.WF S64x64 S64x256 S64x256 [1] [0] [0] [1] [] []
  dot_S8000x192_S192x256_S8000x256_1_0_0_1_n_n_wf : DotDims.WF S8000x192 S192x256 S8000x256 [1] [0] [0] [1] [] []
  dot_S8000x256_S256x256_S8000x256_1_0_0_1_n_n_wf : DotDims.WF S8000x256 S256x256 S8000x256 [1] [0] [0] [1] [] []
  dot_S8000x256_S256x128_S8000x128_1_0_0_1_n_n_wf : DotDims.WF S8000x256 S256x128 S8000x128 [1] [0] [0] [1] [] []
  hrank0 : 0 < grid0.rank
  k0_off1_inb : ∀ i : grid0.Coords, ∀ a, (k0_off1 i) a + S1x8000.size a ≤ S25x8000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x8000.size a ≤ S25x8000.size a
  hwx0_1 : ∀ i : grid0.Coords, EltTy.bits .i32 = 32 ∨ (Rect.block (s := S25x8000) S25x8000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x256.size a ≤ S192x256.size a
  hwx0_2 : ∀ i : grid0.Coords, EltTy.bits .bf16 = 32 ∨ (Rect.block (s := S192x256) S192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x128.size a ≤ S200000x128.size a
  hwx0_8 : ∀ i : grid0.Coords, EltTy.bits .f32 = 32 ∨ (Rect.block (s := S200000x128) S8000x128.size (cc0_transform_8 i) (hinb0_8 i)).WholeWords (EltTy.packing .f32)

variable [Facts₀]

def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S8000x192_S192x256_S8000x256_1_0_0_1_n_n : DotDims S8000x192 S192x256 S8000x256 where
  lhsContracting := [1]
  rhsContracting := [0]
  lhsNonContracting := [0]
  rhsNonContracting := [1]
  lhsBatch := []
  rhsBatch := []
  wf := dot_S8000x192_S192x256_S8000x256_1_0_0_1_n_n_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S25x8000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S8000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x128 : Shape := ⟨2, ![200000, 128]⟩
abbrev S2x800000 : Shape := ⟨2, ![2, 800000]⟩
abbrev S800000x16 : Shape := ⟨2, ![800000, 16]⟩
abbrev S64x64 : Shape := ⟨2, ![64, 64]⟩
abbrev S200000 : Shape := ⟨1, ![200000]⟩
abbrev S192x256 : Shape := ⟨2, ![192, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S200000x1 : Shape := ⟨2, ![200000, 1]⟩
abbrev S200000x64 : Shape := ⟨2, ![200000, 64]⟩
abbrev S200000x192 : Shape := ⟨2, ![200000, 192]⟩
abbrev S200000x256 : Shape := ⟨2, ![200000, 256]⟩
abbrev S1x256 : Shape := ⟨2, ![1, 256]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x800000, .i32⟩
  | .hbm, ⟨2, _⟩ => ⟨S800000x16, .f32⟩
  | .hbm, ⟨3, _⟩ => ⟨S64x64, .f32⟩
  | .hbm, ⟨4, _⟩ => ⟨S200000, .i32⟩
  | .hbm, ⟨5, _⟩ => ⟨S192x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S200000x64, .f32⟩
  | .hbm, ⟨20, _⟩ => ⟨S200000x192, .f32⟩
  | .hbm, ⟨21, _⟩ => ⟨S200000x256, .f32⟩
  | .hbm, ⟨22, _⟩ => ⟨S1x256, .f32⟩
  | .hbm, ⟨23, _⟩ => ⟨S200000x256, .f32⟩
  | .hbm, ⟨24, _⟩ => ⟨S200000x256, .f32⟩
  | .hbm, ⟨25, _⟩ => ⟨S_, .f32⟩
  | .hbm, ⟨26, _⟩ => ⟨S200000x256, .f32⟩
  | .hbm, ⟨27, _⟩ => ⟨S200000x256, .f32⟩
  | .hbm, ⟨28, _⟩ => ⟨S200000x256, .f32⟩
  | .hbm, ⟨29, _⟩ => ⟨S1x256, .f32⟩
  | .hbm, ⟨30, _⟩ => ⟨S200000x256, .f32⟩
  | .hbm, ⟨31, _⟩ => ⟨S200000x256, .f32⟩
  | .hbm, ⟨32, _⟩ => ⟨S_, .f32⟩
  | .hbm, ⟨33, _⟩ => ⟨S200000x256, .f32⟩
  | .hbm, ⟨34, _⟩ => ⟨S200000x256, .f32⟩
  | .hbm, ⟨35, _⟩ => ⟨S200000x128, .f32⟩
  | .hbm, ⟨36, _⟩ => ⟨S1x128, .f32⟩
  | .hbm, ⟨37, _⟩ => ⟨S200000x128, .f32⟩
  | .hbm, ⟨38, _⟩ => ⟨S200000x128, .f32⟩
  | .hbm, ⟨39, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x64_S200000x192_d1 : Shape.Concatenates [S200000x128, S200000x64] S200000x192 1
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S64x64_S200000x1_S200000x64_1_0_n_n_0_1_164_wf : GatherDims.WF S64x64 S200000x1 S200000x64 [1] [0] [] [0] [] 1 ![1, 64]
  dot_S200000x192_S192x256_S200000x256_1_0_0_1_n_n_wf : DotDims.WF S200000x192 S192x256 S200000x256 [1] [0] [0] [1] [] []
  dot_S200000x256_S256x256_S200000x256_1_0_0_1_n_n_wf : DotDims.WF S200000x256 S256x256 S200000x256 [1] [0] [0] [1] [] []
  dot_S200000x256_S256x128_S200000x128_1_0_0_1_n_n_wf : DotDims.WF S200000x256 S256x128 S200000x128 [1] [0] [0] [1] [] []

variable [Facts₀]

def gather_S64x64_S200000x1_S200000x64_1_0_n_n_0_1_164 : GatherDims S64x64 S200000x1 S200000x64 where
  offsetDims := [1]
  collapsedSliceDims := [0]
  operandBatchingDims := []
  startIndicesBatchingDims := []
  startIndexMap := [0]
  indexVectorDim := 1
  sliceSizes := ![1, 64]
  wf := gather_S64x64_S200000x1_S200000x64_1_0_n_n_0_1_164_wf
def dot_S200000x192_S192x256_S200000x256_1_0_0_1_n_n : DotDims S200000x192 S192x256 S200000x256 where
  lhsContracting := [1]
  rhsContracting := [0]
  lhsNonContracting := [0]
  rhsNonContracting := [1]
  lhsBatch := []
  rhsBatch := []
  wf := dot_S200000x192_S192x256_S200000x256_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.KernelPiece.lean ====
/-
  What the kernel body leaves in its output block, as one pure term of the blocks it loads.

  At a grid point the body loads its block of `x` (8000 rows of 128), ONE row of the batch table — row `i` of the
  25 × 8000 table, `i` the point's coordinate —, the three weight blocks and the three bias rows, and stores one value
  over the whole output block. So the block after the body is that value: the residual sum `(h2 · W3 + b3) + x` over the
  loaded blocks, whatever the float instance.
-/
import proofs.«406209_j34239479283983_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.NodeModel

open Cert.KernelIdeal Cert.KernelIdeal.Gen

variable {F : FTy → Type} [FloatOps F]

/-- The offsets of a load or store of a whole block. -/
theorem hz : (![0, 0] : Fin 2 → Nat) = fun _ => 0 := funext fun a => by fin_cases a <;> rfl

/-- The row of the batch table the body loads at grid coordinates `i`: the 1 × 8000 rectangle at row `i`. -/
abbrev batchRow (i : grid0.Coords) (x1 : Vec F S25x8000 .i32) : Vec F S1x8000 .i32 :=
  View.ld x1 (Rect.unit (s := S25x8000) (k0_off1 i) S1x8000.size (k0_off1_inb i))

/-- THE BODY'S VALUE: the output block after the body is the body's one store's value over the loaded blocks. -/
theorem out_eq (c : Dev nD) (i : grid0.Coords) (arg1 : Memref sig .tc .vmem S8000x128 .f32) (harg1 : arg1.IsWhole) (arg2 : Memref sig .tc .vmem S25x8000 .i32) (harg2 : arg2.IsWhole) (arg3 : Memref sig .tc .vmem S192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S8000x128 .f32) (harg9 : arg9.IsWhole)
    (x0 : Vec F S8000x128 .f32) (x1 : Vec F S25x8000 .i32) (x2 : Vec F S192x256 .bf16) (x3 : Vec F S1x256 .f32) (x4 : Vec F S256x256 .bf16) (x5 : Vec F S1x256 .f32) (x6 : Vec F S256x128 .bf16) (x7 : Vec F S1x128 .f32) :
    out0_A_8 c i arg1 harg1 arg2 harg2 arg3 harg3 arg4 harg4 arg5 harg5 arg6 harg6 arg7 harg7 arg8 harg8 arg9 harg9 x0 x1 x2 x3 x4 x5 x6 x7
      = k0_pay1 x0 (k0_pay2 x0 (batchRow i x1) x2 x3 x4 x5 x6) (k0_pay3 x7) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, View.ld_unit_zero (S := S8000x128) hz,
    View.ld_unit_zero (S := S192x256) hz, View.ld_unit_zero (S := S1x256) hz, View.ld_unit_zero (S := S256x256) hz,
    View.ld_unit_zero (S := S256x128) hz, View.ld_unit_zero (S := S1x128) hz]
  rfl

end Cert.KernelIdeal.NodeModel

end
-- ==== Proof.Spec.lean ====
/-
  The node model both programs compute, as one function of the argument arrays, and the law that joins their two
  first layers.

  A node `r` has 128 features `x[r, ·]` and belongs to graph `g = batch[r]`, which has 64 global features `u[g, ·]`.
  The model feeds the 192 numbers `[x[r, ·], u[g, ·]]` through three dense layers, 192 → 256 → 256 → 128, with a clamp
  at zero after the first two, and adds `x[r, ·]` to the result. Everything is read on the extended reals, where a
  product with zero is zero and sums commute and associate, which is all the law below needs: no entry has to be
  finite.

  The law. One program multiplies the row `[x[r, ·], e_g]` — `e_g` the indicator row of `g` among the 64 graphs — by the
  matrix whose first 128 rows are those of `W1` and whose last 64 rows are `u · W1[128:, ·]`; the other multiplies
  `[x[r, ·], u[g, ·]]` by `W1`. Column by column both are
  `∑ k < 128, x[r, k] · W1[k, n] + ∑ j < 64, u[g, j] · W1[128 + j, n]`: the indicator row picks row `g` of the product.
-/
import Idealize.ShloMosaic.PureOps.Ideal
import Idealize.ShloMosaic.PureOps.Ideal.Laws
import Idealize.ShloMosaic.Lib.ValueIdx

noncomputable section

namespace Cert.NodeModel

open Idealize.ShloMosaic Idealize.ShloMosaic.ValueIdx

/-- The float zero both programs clamp at, kept as its word: it is the same word on both sides. -/
abbrev zeroF : EReal := Ideal.ofBits .f32 0x00000000#32

/-! ## Sums over 192 = 128 + 64 entries -/

/-- A sum over 192 entries is the sum over the first 128 plus the sum over the last 64. -/
theorem sum_split (f : Fin 192 → EReal) :
    ∑ k : Fin 192, f k = (∑ k : Fin 128, f ⟨k.val, by omega⟩) + ∑ j : Fin 64, f ⟨128 + j.val, by omega⟩ :=
  Fin.sum_univ_add (M := EReal) (a := 128) (b := 64) f

/-- The indicator row of `g` picks entry `g` of a sum of products. -/
theorem sum_indicator (g : Fin 64) (s : Fin 64 → EReal) :
    ∑ j : Fin 64, (if g = j then (1 : EReal) else 0) * s j = s g := by
  have h : ∀ j : Fin 64, (if g = j then (1 : EReal) else 0) * s j = if g = j then s j else 0 := fun j => by
    split
    · rw [one_mul]
    · rw [zero_mul]
  rw [Finset.sum_congr rfl fun j _ => h j, Finset.sum_ite_eq]
  simp

/-- THE FIRST LAYER'S LAW, one column: the row `[xr, e_g]` against the column `[wa, U · wb]` is the row `[xr, U[g, ·]]`
    against the column `[wa, wb]`. `hin` / `win` are the left program's row and column, `hre` / `wre` the right one's,
    each given by what it is on the first 128 and on the last 64 entries. -/
theorem first_layer (g : Fin 64) (xr wa : Fin 128 → EReal) (U : Fin 64 → Fin 64 → EReal) (wb : Fin 64 → EReal)
    (hin win hre wre : Fin 192 → EReal)
    (hin_lo : ∀ k : Fin 128, hin ⟨k.val, by omega⟩ = xr k)
    (hin_hi : ∀ j : Fin 64, hin ⟨128 + j.val, by omega⟩ = if g = j then (1 : EReal) else 0)
    (win_lo : ∀ k : Fin 128, win ⟨k.val, by omega⟩ = wa k)
    (win_hi : ∀ j : Fin 64, win ⟨128 + j.val, by omega⟩ = ∑ l : Fin 64, U j l * wb l)
    (hre_lo : ∀ k : Fin 128, hre ⟨k.val, by omega⟩ = xr k)
    (hre_hi : ∀ j : Fin 64, hre ⟨128 + j.val, by omega⟩ = U g j)
    (wre_lo : ∀ k : Fin 128, wre ⟨k.val, by omega⟩ = wa k)
    (wre_hi : ∀ j : Fin 64, wre ⟨128 + j.val, by omega⟩ = wb j) :
    ∑ k : Fin 192, hin k * win k = ∑ k : Fin 192, hre k * wre k := by
  rw [sum_split, sum_split]
  congr 1
  · exact Finset.sum_congr rfl fun k _ => by rw [hin_lo, win_lo, hre_lo, wre_lo]
  · rw [Finset.sum_congr rfl fun j _ => by rw [hin_hi, win_hi], sum_indicator g fun j => ∑ l : Fin 64, U j l * wb l]
    exact Finset.sum_congr rfl fun j _ => by rw [hre_hi, wre_hi]

/-! ## The model as one function -/

/-- One row of the first layer: `max (row · W1 + b1) 0`, column by column. -/
def hiddenF (row : Fin 192 → EReal) (W1 : Fin 192 → Fin 256 → EReal) (b1 : Fin 256 → EReal) (n : Fin 256) : EReal :=
  max ((∑ k : Fin 192, row k * W1 k n) + b1 n) zeroF

/-- Layers two and three and the residual, from a first hidden row `h1` and the node's own features `xr`. -/
def tailF (W2 : Fin 256 → Fin 256 → EReal) (b2 : Fin 256 → EReal) (W3 : Fin 256 → Fin 128 → EReal) (b3 : Fin 128 → EReal)
    (h1 : Fin 256 → EReal) (xr : Fin 128 → EReal) (n : Fin 128) : EReal :=
  ((∑ k : Fin 256, max ((∑ j : Fin 256, h1 j * W2 j k) + b2 k) zeroF * W3 k n) + b3 n) + xr n

/-- The first layer of the two programs agrees row by row when their rows and weight columns are related as
    `first_layer` asks. -/
theorem hiddenF_congr (g : Fin 64) (xr : Fin 128 → EReal) (U : Fin 64 → Fin 64 → EReal)
    (hin hre : Fin 192 → EReal) (Win Wre : Fin 192 → Fin 256 → EReal) (b1 : Fin 256 → EReal)
    (hin_lo : ∀ k : Fin 128, hin ⟨k.val, by omega⟩ = xr k)
    (hin_hi : ∀ j : Fin 64, hin ⟨128 + j.val, by omega⟩ = if g = j then (1 : EReal) else 0)
    (win_lo : ∀ (k : Fin 128) (n : Fin 256), Win ⟨k.val, by omega⟩ n = Wre ⟨k.val, by omega⟩ n)
    (win_hi : ∀ (j : Fin 64) (n : Fin 256), Win ⟨128 + j.val, by omega⟩ n = ∑ l : Fin 64, U j l * Wre ⟨128 + l.val, by omega⟩ n)
    (hre_lo : ∀ k : Fin 128, hre ⟨k.val, by omega⟩ = xr k)
    (hre_hi : ∀ j : Fin 64, hre ⟨128 + j.val, by omega⟩ = U g j) :
    hiddenF hin Win b1 = hiddenF hre Wre b1 := by
  funext n
  unfold hiddenF
  rw [first_layer g xr (fun k => Wre ⟨k.val, by omega⟩ n) U (fun l => Wre ⟨128 + l.val, by omega⟩ n)
    hin (fun k => Win k n) hre (fun k => Wre k n) hin_lo hin_hi (fun k => win_lo k n) (fun j => win_hi j n)
    hre_lo hre_hi (fun _ => rfl) (fun _ => rfl)]

/-- The graph of node `r`: its batch word read as a number. Where the claim speaks the word lies in `[0, 64)` and
    this is its value; the remainder only makes the definition total. -/
def graphOf (bt : (⟨1, ![200000]⟩ : Shape).Idx → BitVec 32) (r : Fin 200000) : Fin 64 :=
  ⟨(bt (ix1 r)).toNat % 64, Nat.mod_lt _ (by decide)⟩

/-- Entry `k` of node `r`'s first-layer input: its own features, then its graph's. -/
def featRow (x : (⟨2, ![200000, 128]⟩ : Shape).Idx → EReal) (u : (⟨2, ![64, 64]⟩ : Shape).Idx → EReal)
    (bt : (⟨1, ![200000]⟩ : Shape).Idx → BitVec 32) (r : Fin 200000) (k : Fin 192) : EReal :=
  if h : k.val < 128 then x (ix2 r ⟨k.val, h⟩) else u (ix2 (graphOf bt r) ⟨k.val - 128, by omega⟩)

/-- THE RESULT: entry `(r, n)` of the model's output, as a function of the nine arrays the model reads. -/
def G (x : (⟨2, ![200000, 128]⟩ : Shape).Idx → EReal) (u : (⟨2, ![64, 64]⟩ : Shape).Idx → EReal)
    (bt : (⟨1, ![200000]⟩ : Shape).Idx → BitVec 32) (W1 : (⟨2, ![192, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 128]⟩ : Shape).Idx → EReal)
    (b3 : (⟨1, ![128]⟩ : Shape).Idx → EReal) : (⟨2, ![200000, 128]⟩ : Shape).Idx → EReal := fun i =>
  tailF (fun j k => W2 (ix2 j k)) (fun k => b2 (ix1 k)) (fun k n => W3 (ix2 k n)) (fun n => b3 (ix1 n))
    (hiddenF (featRow x u bt ⟨(i 0).val, idx2_lt0 i⟩) (fun k n => W1 (ix2 k n)) (fun n => b1 (ix1 n)))
    (fun q => x (ix2 ⟨(i 0).val, idx2_lt0 i⟩ q)) ⟨(i 1).val, idx2_lt1 i⟩

/-- `G` at an index given by its coordinates. -/
theorem G_ix2 (x : (⟨2, ![200000, 128]⟩ : Shape).Idx → EReal) (u : (⟨2, ![64, 64]⟩ : Shape).Idx → EReal)
    (bt : (⟨1, ![200000]⟩ : Shape).Idx → BitVec 32) (W1 : (⟨2, ![192, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 128]⟩ : Shape).Idx → EReal)
    (b3 : (⟨1, ![128]⟩ : Shape).Idx → EReal) (r : Fin 200000) (n : Fin 128) :
    G x u bt W1 b1 W2 b2 W3 b3 (ix2 r n)
      = tailF (fun j k => W2 (ix2 j k)) (fun k => b2 (ix1 k)) (fun k n => W3 (ix2 k n)) (fun n => b3 (ix1 n))
          (hiddenF (featRow x u bt r) (fun k n => W1 (ix2 k n)) (fun n => b1 (ix1 n))) (fun q => x (ix2 r q)) n := rfl

end Cert.NodeModel

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.LibKeepdimsColumn.lean ====
/-
  Two layout operations read at an index given by coordinates: the column forms a row reduction with kept dimensions
  meets. A row's maximum or sum comes out as a vector of length `a`; it is cast to an `[a, 1]` column and the column is
  broadcast along the rows of an `[a, b]` array. Read at `(i, u)` the cast is the vector at `i`; read at `(p, c)` the
  broadcast is the column's entry of row `p`. Both hold for any sizes and any element type.
-/
import Idealize.ShloMosaic.Lib.Pipeline.Value
import Idealize.ShloMosaic.Lib.ValueIdx

namespace Cert.LibKeepdimsColumn

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn
-- ==== Proof.KernelPayload.lean ====
/-
  The kernel body's value at an index of its output block, on the extended reals.

  Row `p` of the block the body works on is one node. The body forms the node's first-layer input — its 128 features
  followed by the indicator row of its batch word among the 64 graphs: lane `j` is `1` where the word is `j`, else
  `0` —, multiplies by the first weight block, adds the bias row, clamps at zero; does the same with the second block;
  multiplies by the third, adds its bias row and the node's own features. A change of float format is the identity
  here, and a matrix product into a zero accumulator is the plain sum of products, so entry `(p, q)` of the stored
  value is the specification's `tailF` over `hiddenF` of that row, with every weight read from its block.
-/
import proofs.«406209_j34239479283983_3_alg».proof.Proof.Gen.KernelIdeal.Skeleton
import proofs.«406209_j34239479283983_3_alg».proof.Proof.Spec
import proofs.«406209_j34239479283983_3_alg».proof.Proof.LibPlainMatmul
import proofs.«406209_j34239479283983_3_alg».proof.Proof.LibKeepdimsColumn
import Idealize.ShloMosaic.Lib.Pipeline.Value
import Idealize.ShloMosaic.Lib.ValueIdx
import Idealize.ShloMosaic.Lib.ValueLayout
import Idealize.ShloMosaic.Lib.KernelVsHost
import Idealize.ShloMosaic.Lib.Affine
import Idealize.ShloMosaic.PureOps.Ideal.Laws

noncomputable section

open Idealize.ShloMosaic Idealize.ShloMosaic.TcCoe Idealize.ShloMosaic.ValueIdx

namespace Cert.KernelIdeal.NodeModel

open Cert.KernelIdeal Cert.KernelIdeal.Gen Cert.NodeModel

/-! ## The indicator lane -/

/-- A word compared for equality, widened and converted, is `1` where the words are equal and `0` elsewhere. -/
theorem indicator_word (w v : BitVec 32) :
    (FloatOps.sitofp (F := Ideal) .f32 ((IntOp.cmpi .eq w v).setWidth 32) : EReal) = if w = v then 1 else 0 := by
  show ((((IntOp.cmpi .eq w v).setWidth 32).toInt : ℝ) : EReal) = _
  rw [toInt_setWidth_bit]
  by_cases h : w = v
  · rw [if_pos h, IntOp.cmpi_eq.mpr h]; norm_num
  · rw [if_neg h, eq_zero_of_ne_one fun h' => h (IntOp.cmpi_eq.mp h')]; norm_num

/-- Row `p` of the first layer's input as the body forms it from its block `x0` of `x` and its row `v2` of batch words. -/
def inRow (x0 : Vec Ideal S8000x128 .f32) (v2 : Vec Ideal S1x8000 .i32) (p : Fin 8000) (k : Fin 192) : EReal :=
  if h : k.val < 128 then x0 (ix2 p ⟨k.val, h⟩)
  else if v2 (ix2 (0 : Fin 1) p) = BitVec.ofNat 32 (k.val - 128) then 1 else 0

/-- The indicator block, as the body computes it: the batch words as a column, spread over 64 lanes, compared with the
    lanes' numbers, and the answers converted to floats. -/
def oneHot (v2 : Vec Ideal S1x8000 .i32) : FVec Ideal S8000x64 .bf16 :=
  truncf .bf16 (sitofp .f32 (extui 32 (cmpi .eq
      (broadcastTo S8000x64 (transpose S8000x1 [1, 0] (shapeCast S1x8000 v2 shapeCasts_S1x8000_S1x8000) transposes_S1x8000_p1_0_S8000x1) broadcasts_S8000x1_S8000x64)
      (iota .tc S8000x64 32 [1] iota_S8000x64_d1_w32)) natLt_1_32) : FVec Ideal S8000x64 .f32) bitsLt_bf16_f32

/-- The node features of the block, in the matrix unit's input format (the same numbers). -/
def featBlock (x0 : Vec Ideal S8000x128 .f32) : FVec Ideal S8000x128 .bf16 :=
  truncf .bf16 (x0 : FVec Ideal S8000x128 .f32) bitsLt_bf16_f32

/-- The concatenated first-layer input, as the body computes it. -/
def inVec (x0 : Vec Ideal S8000x128 .f32) (v2 : Vec Ideal S1x8000 .i32) : FVec Ideal S8000x192 .bf16 :=
  concatenate S8000x192 1 [⟨S8000x128, featBlock x0⟩, ⟨S8000x64, oneHot v2⟩] concatenates_S8000x128_S8000x64_S8000x192_d1

/-- A lane of the indicator block: the node's batch word against the lane's number. -/
theorem oneHot_apply (v2 : Vec Ideal S1x8000 .i32) (p : Fin 8000) (j : Fin 64) :
    oneHot v2 (ix2 p j) = if v2 (ix2 (0 : Fin 1) p) = BitVec.ofNat 32 j.val then 1 else 0 := by
  show (FloatOps.sitofp (F := Ideal) .f32 ((IntOp.cmpi .eq
      (broadcastTo S8000x64 (transpose S8000x1 [1, 0] (shapeCast S1x8000 v2 shapeCasts_S1x8000_S1x8000) transposes_S1x8000_p1_0_S8000x1) broadcasts_S8000x1_S8000x64 (ix2 p j))
      (iota .tc S8000x64 32 [1] iota_S8000x64_d1_w32 (ix2 p j))).setWidth 32) : EReal) = _
  rw [Cert.LibKeepdimsColumn.broadcastTo_a1_ab_apply, transpose_ix2_apply, shapeCast_self, iota_single_apply, indicator_word]

/-- The first-layer input at `(p, k)`. -/
theorem inVec_apply (x0 : Vec Ideal S8000x128 .f32) (v2 : Vec Ideal S1x8000 .i32) (p : Fin 8000) (k : Fin 192) :
    inVec x0 v2 (ix2 p k) = inRow x0 v2 p k := by
  unfold inVec inRow
  by_cases h : k.val < 128
  · rw [dif_pos h]
    exact concatenate_pair_apply_left (t := S8000x192) (s₁ := S8000x128) (s₂ := S8000x64) (1 : Fin 2) (featBlock x0) (oneHot v2)
      concatenates_S8000x128_S8000x64_S8000x192_d1 (ix2 p k) rfl (ix2 p (⟨k.val, h⟩ : Fin 128))
      (fun b => match b with | ⟨0, _⟩ => rfl | ⟨1, _⟩ => rfl)
  · rw [dif_neg h]
    refine (concatenate_pair_apply_right (t := S8000x192) (s₁ := S8000x128) (s₂ := S8000x64) (1 : Fin 2) (featBlock x0) (oneHot v2)
      concatenates_S8000x128_S8000x64_S8000x192_d1 (ix2 p k) rfl rfl (ix2 p (⟨k.val - 128, by omega⟩ : Fin 64))
      (fun b hb => match b with | ⟨0, _⟩ => rfl | ⟨1, _⟩ => absurd rfl hb) ?_).trans ?_
    · show k.val - 128 + 128 = k.val
      omega
    · exact oneHot_apply v2 p ⟨k.val - 128, by omega⟩

/-! ## The three layers, each read at an index -/

/-- The first hidden block. -/
def h1v (x0 : Vec Ideal S8000x128 .f32) (v2 : Vec Ideal S1x8000 .i32) (x2 : FVec Ideal S192x256 .bf16) (x3 : Vec Ideal S1x256 .f32) :
    FVec Ideal S8000x256 .f32 :=
  maximumf (addf (matmul dot_S8000x192_S192x256_S8000x256_1_0_0_1_n_n none (inVec x0 v2) (shapeCast S192x256 x2 shapeCasts_S192x256_S192x256 : FVec Ideal S192x256 .bf16)
      (constant S8000x256 .f32 0x00000000#32))
    (broadcastTo S8000x256 (shapeCast S1x256 x3 shapeCasts_S1x256_S1x256) broadcasts_S1x256_S8000x256))
    (broadcast S8000x256 (Scalar.ofBits .f32 0x00000000#32))

/-- The second hidden block, from a first one. -/
def h2v (h1 : FVec Ideal S8000x256 .f32) (x4 : FVec Ideal S256x256 .bf16) (x5 : Vec Ideal S1x256 .f32) : FVec Ideal S8000x256 .f32 :=
  maximumf (addf (matmul dot_S8000x256_S256x256_S8000x256_1_0_0_1_n_n none (truncf .bf16 h1 bitsLt_bf16_f32 : FVec Ideal S8000x256 .bf16)
      (shapeCast S256x256 x4 shapeCasts_S256x256_S256x256 : FVec Ideal S256x256 .bf16) (constant S8000x256 .f32 0x00000000#32))
    (broadcastTo S8000x256 (shapeCast S1x256 x5 shapeCasts_S1x256_S1x256) broadcasts_S1x256_S8000x256))
    (broadcast S8000x256 (Scalar.ofBits .f32 0x00000000#32))

/-- The stored block, from a second hidden block. -/
def outv (h2 : FVec Ideal S8000x256 .f32) (x6 : FVec Ideal S256x128 .bf16) (x7 : Vec Ideal S1x128 .f32) (x0 : Vec Ideal S8000x128 .f32) :
    FVec Ideal S8000x128 .f32 :=
  addf (addf (matmul dot_S8000x256_S256x128_S8000x128_1_0_0_1_n_n none (truncf .bf16 h2 bitsLt_bf16_f32 : FVec Ideal S8000x256 .bf16)
      (shapeCast S256x128 x6 shapeCasts_S256x128_S256x128 : FVec Ideal S256x128 .bf16) (constant S8000x128 .f32 0x00000000#32))
    (broadcastTo S8000x128 (shapeCast S1x128 x7 shapeCasts_S1x128_S1x128) broadcasts_S1x128_S8000x128)) x0

/-- The body's stored value is the three layers composed. -/
theorem payload_eq (x0 : Vec Ideal S8000x128 .f32) (v2 : Vec Ideal S1x8000 .i32) (x2 : FVec Ideal S192x256 .bf16) (x3 : Vec Ideal S1x256 .f32)
    (x4 : FVec Ideal S256x256 .bf16) (x5 : Vec Ideal S1x256 .f32) (x6 : FVec Ideal S256x128 .bf16) (x7 : Vec Ideal S1x128 .f32) :
    k0_pay1 x0 (k0_pay2 x0 v2 x2 x3 x4 x5 x6) (k0_pay3 x7) = outv (h2v (h1v x0 v2 x2 x3) x4 x5) x6 x7 x0 := rfl

theorem h1v_apply (x0 : Vec Ideal S8000x128 .f32) (v2 : Vec Ideal S1x8000 .i32) (x2 : FVec Ideal S192x256 .bf16) (x3 : Vec Ideal S1x256 .f32)
    (p : Fin 8000) (n : Fin 256) :
    h1v x0 v2 x2 x3 (ix2 p n) = hiddenF (inRow x0 v2 p) (fun k n => x2 (ix2 k n)) (fun n => x3 (ix2 (0 : Fin 1) n)) n := by
  show max (FloatOps.matmul dot_S8000x192_S192x256_S8000x256_1_0_0_1_n_n none (inVec x0 v2) (shapeCast S192x256 x2 shapeCasts_S192x256_S192x256 : FVec Ideal S192x256 .bf16)
      (constant S8000x256 .f32 0x00000000#32) (ix2 p n)
    + broadcastTo S8000x256 (shapeCast S1x256 x3 shapeCasts_S1x256_S1x256) broadcasts_S1x256_S8000x256 (ix2 p n)) zeroF = _
  rw [Cert.Lib.matmul_plain_apply _ rfl rfl rfl rfl rfl rfl, shapeCast_self, shapeCast_self, broadcastTo_1b_ab_apply]
  unfold hiddenF
  rw [Finset.sum_congr rfl fun k _ => by rw [inVec_apply]]

theorem h2v_apply (h1 : FVec Ideal S8000x256 .f32) (x4 : FVec Ideal S256x256 .bf16) (x5 : Vec Ideal S1x256 .f32) (p : Fin 8000) (k : Fin 256) :
    h2v h1 x4 x5 (ix2 p k) = max ((∑ j : Fin 256, h1 (ix2 p j) * x4 (ix2 j k)) + x5 (ix2 (0 : Fin 1) k)) zeroF := by
  show max (FloatOps.matmul dot_S8000x256_S256x256_S8000x256_1_0_0_1_n_n none (truncf .bf16 h1 bitsLt_bf16_f32 : FVec Ideal S8000x256 .bf16)
      (shapeCast S256x256 x4 shapeCasts_S256x256_S256x256 : FVec Ideal S256x256 .bf16) (constant S8000x256 .f32 0x00000000#32) (ix2 p k)
    + broadcastTo S8000x256 (shapeCast S1x256 x5 shapeCasts_S1x256_S1x256) broadcasts_S1x256_S8000x256 (ix2 p k)) zeroF = _
  rw [Cert.Lib.matmul_plain_apply _ rfl rfl rfl rfl rfl rfl, shapeCast_self, shapeCast_self, broadcastTo_1b_ab_apply]
  rfl

theorem outv_apply (h2 : FVec Ideal S8000x256 .f32) (x6 : FVec Ideal S256x128 .bf16) (x7 : Vec Ideal S1x128 .f32) (x0 : Vec Ideal S8000x128 .f32)
    (p : Fin 8000) (q : Fin 128) :
    outv h2 x6 x7 x0 (ix2 p q) = ((∑ k : Fin 256, h2 (ix2 p k) * x6 (ix2 k q)) + x7 (ix2 (0 : Fin 1) q)) + x0 (ix2 p q) := by
  show (FloatOps.matmul dot_S8000x256_S256x128_S8000x128_1_0_0_1_n_n none (truncf .bf16 h2 bitsLt_bf16_f32 : FVec Ideal S8000x256 .bf16)
      (shapeCast S256x128 x6 shapeCasts_S256x128_S256x128 : FVec Ideal S256x128 .bf16) (constant S8000x128 .f32 0x00000000#32) (ix2 p q)
    + broadcastTo S8000x128 (shapeCast S1x128 x7 shapeCasts_S1x128_S1x128) broadcasts_S1x128_S8000x128 (ix2 p q)) + x0 (ix2 p q) = _
  rw [Cert.Lib.matmul_plain_apply _ rfl rfl rfl rfl rfl rfl, shapeCast_self, shapeCast_self, broadcastTo_1b_ab_apply]
  rfl

/-- THE BODY'S VALUE AT `(p, q)`: the specification's last two layers over its first, all read from the loaded blocks. -/
theorem payload_apply (x0 : Vec Ideal S8000x128 .f32) (v2 : Vec Ideal S1x8000 .i32) (x2 : FVec Ideal S192x256 .bf16) (x3 : Vec Ideal S1x256 .f32)
    (x4 : FVec Ideal S256x256 .bf16) (x5 : Vec Ideal S1x256 .f32) (x6 : FVec Ideal S256x128 .bf16) (x7 : Vec Ideal S1x128 .f32)
    (p : Fin 8000) (q : Fin 128) :
    k0_pay1 x0 (k0_pay2 x0 v2 x2 x3 x4 x5 x6) (k0_pay3 x7) (ix2 p q)
      = tailF (fun j k => x4 (ix2 j k)) (fun k => x5 (ix2 (0 : Fin 1) k)) (fun k n => x6 (ix2 k n)) (fun n => x7 (ix2 (0 : Fin 1) n))
          (hiddenF (inRow x0 v2 p) (fun k n => x2 (ix2 k n)) (fun n => x3 (ix2 (0 : Fin 1) n))) (fun k => x0 (ix2 p k)) q := by
  rw [payload_eq, outv_apply]
  unfold tailF
  rw [Finset.sum_congr rfl fun k _ => by rw [h2v_apply, Finset.sum_congr rfl fun j _ => by rw [h1v_apply]]]

end Cert.KernelIdeal.NodeModel

end
-- ==== Proof.KernelPoint.lean ====
/-
  The kernel body's value at one grid point is the node model on that point's rows.

  Grid point `tt` works on rows `8000·tt … 8000·tt + 7999`. Suppose the blocks the body loads are what the program
  stages there: rows `8000·tt + p` of `x` and of the batch words; the first-layer weight block whose first 128 rows
  are `W1`'s and whose last 64 rows are `u · W1[128:, ·]`; the other weights and the biases as they are. Then entry
  `(p, q)` of the stored value is `G` at row `8000·tt + p`, column `q`: the last two layers agree term by term, and the
  first layer is the law of the specification, the indicator row of a batch word below 64 being the indicator of the
  node's graph.
-/
import proofs.«406209_j34239479283983_3_alg».proof.Proof.KernelPayload

noncomputable section

open Idealize.ShloMosaic Idealize.ShloMosaic.TcCoe Idealize.ShloMosaic.ValueIdx

namespace Cert.KernelIdeal.NodeModel

open Cert.KernelIdeal Cert.KernelIdeal.Gen Cert.NodeModel

/-- A word below 64 is lane `j`'s number exactly when its value is `j`. -/
theorem word_eq_lane (w : BitVec 32) (hw : w.toNat < 64) (j : Fin 64) :
    w = BitVec.ofNat 32 j.val ↔ (⟨w.toNat % 64, Nat.mod_lt _ (by decide)⟩ : Fin 64) = j := by
  have hj := j.isLt
  constructor
  · intro h
    apply Fin.ext
    show w.toNat % 64 = j.val
    rw [h, BitVec.toNat_ofNat]
    omega
  · intro h
    have hv : w.toNat % 64 = j.val := congrArg Fin.val h
    apply BitVec.eq_of_toNat_eq
    rw [BitVec.toNat_ofNat]
    omega

/-- Row `p` of grid point `tt`'s block, as a row of the whole array. -/
abbrev rowOf (tt : ℕ) (htt : tt < 25) (p : Fin 8000) : Fin 200000 := ⟨tt * 8000 + p.val, by have := p.isLt; omega⟩

/-- THE POINT'S VALUE. -/
theorem point_value
    (X : (⟨2, ![200000, 128]⟩ : Shape).Idx → EReal) (U : (⟨2, ![64, 64]⟩ : Shape).Idx → EReal)
    (BT : (⟨1, ![200000]⟩ : Shape).Idx → BitVec 32) (W1 : (⟨2, ![192, 256]⟩ : Shape).Idx → EReal)
    (B1 : (⟨1, ![256]⟩ : Shape).Idx → EReal) (W2 : (⟨2, ![256, 256]⟩ : Shape).Idx → EReal)
    (B2 : (⟨1, ![256]⟩ : Shape).Idx → EReal) (W3 : (⟨2, ![256, 128]⟩ : Shape).Idx → EReal)
    (B3 : (⟨1, ![128]⟩ : Shape).Idx → EReal)
    (hb : ∀ r : Fin 200000, (BT (ix1 r)).toNat < 64)
    (x0 : Vec Ideal S8000x128 .f32) (v2 : Vec Ideal S1x8000 .i32) (x2 : FVec Ideal S192x256 .bf16) (x3 : Vec Ideal S1x256 .f32)
    (x4 : FVec Ideal S256x256 .bf16) (x5 : Vec Ideal S1x256 .f32) (x6 : FVec Ideal S256x128 .bf16) (x7 : Vec Ideal S1x128 .f32)
    (tt : ℕ) (htt : tt < 25)
    (hx0 : ∀ (p : Fin 8000) (k : Fin 128), x0 (ix2 p k) = X (ix2 (rowOf tt htt p) k))
    (hv2 : ∀ p : Fin 8000, v2 (ix2 (0 : Fin 1) p) = BT (ix1 (rowOf tt htt p)))
    (hx2lo : ∀ (k : Fin 128) (n : Fin 256), x2 (ix2 (⟨k.val, by omega⟩ : Fin 192) n) = W1 (ix2 (⟨k.val, by omega⟩ : Fin 192) n))
    (hx2hi : ∀ (j : Fin 64) (n : Fin 256), x2 (ix2 (⟨128 + j.val, by omega⟩ : Fin 192) n)
      = ∑ l : Fin 64, U (ix2 j l) * W1 (ix2 (⟨128 + l.val, by omega⟩ : Fin 192) n))
    (hx3 : ∀ n : Fin 256, x3 (ix2 (0 : Fin 1) n) = B1 (ix1 n))
    (hx4 : ∀ j k : Fin 256, x4 (ix2 j k) = W2 (ix2 j k))
    (hx5 : ∀ k : Fin 256, x5 (ix2 (0 : Fin 1) k) = B2 (ix1 k))
    (hx6 : ∀ (k : Fin 256) (n : Fin 128), x6 (ix2 k n) = W3 (ix2 k n))
    (hx7 : ∀ n : Fin 128, x7 (ix2 (0 : Fin 1) n) = B3 (ix1 n))
    (p : Fin 8000) (q : Fin 128) :
    k0_pay1 x0 (k0_pay2 x0 v2 x2 x3 x4 x5 x6) (k0_pay3 x7) (ix2 p q)
      = G X U BT W1 B1 W2 B2 W3 B3 (ix2 (rowOf tt htt p) q) := by
  rw [payload_apply, G_ix2]
  -- the first layer: the specification's law
  have e1 : hiddenF (inRow x0 v2 p) (fun k n => x2 (ix2 k n)) (fun n => x3 (ix2 (0 : Fin 1) n))
      = hiddenF (featRow X U BT (rowOf tt htt p)) (fun k n => W1 (ix2 k n)) (fun n => B1 (ix1 n)) := by
    rw [show (fun n : Fin 256 => x3 (ix2 (0 : Fin 1) n)) = fun n => B1 (ix1 n) from funext hx3]
    refine hiddenF_congr (graphOf BT (rowOf tt htt p)) (fun k => X (ix2 (rowOf tt htt p) k)) (fun j l => U (ix2 j l))
      (inRow x0 v2 p) (featRow X U BT (rowOf tt htt p)) (fun k n => x2 (ix2 k n)) (fun k n => W1 (ix2 k n)) (fun n => B1 (ix1 n))
      ?_ ?_ ?_ ?_ ?_ ?_
    · intro k
      unfold inRow
      rw [dif_pos k.isLt]
      exact hx0 p k
    · intro j
      unfold inRow
      rw [dif_neg (by omega : ¬ 128 + j.val < 128), hv2 p]
      refine if_congr ?_ rfl rfl
      rw [show 128 + j.val - 128 = j.val from Nat.add_sub_cancel_left 128 j.val]
      exact word_eq_lane _ (hb (rowOf tt htt p)) j
    · intro k n
      exact hx2lo k n
    · intro j n
      exact hx2hi j n
    · intro k
      unfold featRow
      rw [dif_pos k.isLt]
    · intro j
      unfold featRow
      rw [dif_neg (by omega : ¬ 128 + j.val < 128)]
      exact congrArg (fun l : Fin 64 => U (ix2 (graphOf BT (rowOf tt htt p)) l)) (Fin.ext (Nat.add_sub_cancel_left 128 j.val))
  rw [e1]
  -- the last two layers and the residual: the same weights, biases and features
  rw [show (fun j k : Fin 256 => x4 (ix2 j k)) = fun j k => W2 (ix2 j k) from funext fun j => funext fun k => hx4 j k,
    show (fun k : Fin 256 => x5 (ix2 (0 : Fin 1) k)) = fun k => B2 (ix1 k) from funext hx5,
    show (fun (k : Fin 256) (n : Fin 128) => x6 (ix2 k n)) = fun k n => W3 (ix2 k n) from funext fun k => funext fun n => hx6 k n,
    show (fun n : Fin 128 => x7 (ix2 (0 : Fin 1) n)) = fun n => B3 (ix1 n) from funext hx7,
    show (fun k : Fin 128 => x0 (ix2 p k)) = fun k => X (ix2 (rowOf tt htt p) k) from funext (hx0 p)]

end Cert.KernelIdeal.NodeModel

end
-- ==== Proof.KernelHost.lean ====
/-
  The blocks the kernel body loads, as entries of the program's argument arrays.

  Before the kernel runs, the host part of the program prepares what the kernel's windows stage: the batch words laid
  out as a 25 × 8000 table (row `t` holds the words of nodes `8000·t … 8000·t + 7999`); the first-layer weight whose
  first 128 rows are `W1`'s and whose last 64 rows are the product `u · W1[128:, ·]`; `W2` and `W3` in the matrix
  unit's input format (the same numbers, read on the extended reals); the three biases as single rows. Grid point
  `t` stages rows `8000·t …` of `x` and, of every other array, the whole array; of the batch table the body then
  loads row `t`.
-/
import proofs.«406209_j34239479283983_3_alg».proof.Proof.Gen.KernelIdeal.Frame
import proofs.«406209_j34239479283983_3_alg».proof.Proof.LibPlainMatmul
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.StableHlo
open Idealize.ShloMosaic.ValueIdx

namespace Cert.KernelIdeal.NodeModel

open Cert.KernelIdeal Cert.KernelIdeal.Gen

variable (m : (ℓ : Loc nD τ sig) → Buf (Elt Ideal) ℓ)

/-! ## The argument arrays -/

abbrev argX (c : Dev nD) : S200000x128.Idx → EReal := m ((c : Thread nD τ).loc main_arg0)
abbrev argU (c : Dev nD) : S64x64.Idx → EReal := m ((c : Thread nD τ).loc main_arg3)
abbrev argBT (c : Dev nD) : S200000.Idx → BitVec 32 := m ((c : Thread nD τ).loc main_arg4)
abbrev argW1 (c : Dev nD) : S192x256.Idx → EReal := m ((c : Thread nD τ).loc main_arg5)
abbrev argB1 (c : Dev nD) : S256.Idx → EReal := m ((c : Thread nD τ).loc main_arg6)
abbrev argW2 (c : Dev nD) : S256x256.Idx → EReal := m ((c : Thread nD τ).loc main_arg7)
abbrev argB2 (c : Dev nD) : S256.Idx → EReal := m ((c : Thread nD τ).loc main_arg8)
abbrev argW3 (c : Dev nD) : S256x128.Idx → EReal := m ((c : Thread nD τ).loc main_arg9)
abbrev argB3 (c : Dev nD) : S128.Idx → EReal := m ((c : Thread nD τ).loc main_arg10)

/-! ## What the host part prepares, read at an index -/

/-- The batch table at `(t, p)` is the batch word of node `8000·t + p`. -/
theorem table_apply (c : Dev nD) (t : Fin 25) (p : Fin 8000) (r : Fin 200000) (hr : r.val = t.val * 8000 + p.val) :
    (V m c main_v0 : S25x8000.Idx → BitVec 32) (ix2 t p) = argBT m c (ix1 r) := by
  have e : (V m c main_v0 : S25x8000.Idx → BitVec 32)
      = shapeCast S25x8000 (argBT m c) shapeCasts_S200000_S25x8000 := by
    dsimp only [Gen.V, Gen.hostOps0]; after_results; rfl
  rw [e]
  exact shapeCast_apply _ _ _ _ (by
    rw [Shape.rowMajor_val_one, Shape.rowMajor_val_two]
    exact hr)

/-- The first 128 rows of `W1`. -/
abbrev w1Lo (c : Dev nD) : S128x256.Idx → EReal :=
  extractStridedSlice S128x256 ![0, 0] (argW1 m c) slices_S192x256_S128x256_0_0
/-- The last 64 rows of `W1`. -/
abbrev w1Hi (c : Dev nD) : S64x256.Idx → EReal :=
  extractStridedSlice S64x256 ![128, 0] (argW1 m c) slices_S192x256_S64x256_128_0
/-- The product of `u` with the last 64 rows of `W1`. -/
abbrev uW1 (c : Dev nD) : S64x256.Idx → EReal :=
  Host.dotGeneral (F := Ideal) (φ₁ := .f32) (φ₂ := .f32) dot_S64x64_S64x256_S64x256_1_0_0_1_n_n none (argU m c) (w1Hi m c)
/-- The first-layer weight the kernel is given: the first 128 rows of `W1` over that product. -/
abbrev w1Cat (c : Dev nD) : S192x256.Idx → EReal :=
  concatenate S192x256 0 [⟨S128x256, w1Lo m c⟩, ⟨S64x256, uW1 m c⟩] concatenates_S128x256_S64x256_S192x256_d0

/-- The staged first-layer weight is that array (its format change is the identity on the extended reals). -/
theorem weight1_eq (c : Dev nD) : (V m c main_v5 : S192x256.Idx → EReal) = fun i => w1Cat m c i := by
  dsimp only [Gen.V, Gen.hostOps0]; after_results; rfl

/-- The first 128 rows of the first-layer weight are `W1`'s. -/
theorem weight1_lo (c : Dev nD) (k : Fin 128) (n : Fin 256) :
    (V m c main_v5 : S192x256.Idx → EReal) (ix2 (⟨k.val, by omega⟩ : Fin 192) n) = argW1 m c (ix2 (⟨k.val, by omega⟩ : Fin 192) n) := by
  rw [weight1_eq]
  show w1Cat m c (ix2 (⟨k.val, by omega⟩ : Fin 192) n) = _
  refine (concatenate_pair_apply_left (t := S192x256) (s₁ := S128x256) (s₂ := S64x256) (0 : Fin 2) (w1Lo m c) (uW1 m c)
    concatenates_S128x256_S64x256_S192x256_d0 (ix2 (⟨k.val, by omega⟩ : Fin 192) n) rfl (ix2 k n)
    (fun b => match b with | ⟨0, _⟩ => rfl | ⟨1, _⟩ => rfl)).trans ?_
  exact slice2_axis0_apply 0 (argW1 m c) slices_S192x256_S128x256_0_0 k n ⟨k.val, by omega⟩ (Nat.zero_add _).symm

/-- The last 64 rows of the first-layer weight are the product of `u` with the last 64 rows of `W1`. -/
theorem weight1_hi (c : Dev nD) (j : Fin 64) (n : Fin 256) :
    (V m c main_v5 : S192x256.Idx → EReal) (ix2 (⟨128 + j.val, by omega⟩ : Fin 192) n)
      = ∑ l : Fin 64, argU m c (ix2 j l) * argW1 m c (ix2 (⟨128 + l.val, by omega⟩ : Fin 192) n) := by
  rw [weight1_eq]
  show w1Cat m c (ix2 (⟨128 + j.val, by omega⟩ : Fin 192) n) = _
  refine (concatenate_pair_apply_right (t := S192x256) (s₁ := S128x256) (s₂ := S64x256) (0 : Fin 2) (w1Lo m c) (uW1 m c)
    concatenates_S128x256_S64x256_S192x256_d0 (ix2 (⟨128 + j.val, by omega⟩ : Fin 192) n) rfl rfl (ix2 j n)
    (fun b hb => match b with | ⟨0, _⟩ => absurd rfl hb | ⟨1, _⟩ => rfl) ?_).trans ?_
  · show j.val + 128 = 128 + j.val
    omega
  · show FloatOps.dotGeneral (F := Ideal) (φ₁ := .f32) (φ₂ := .f32) dot_S64x64_S64x256_S64x256_1_0_0_1_n_n none .single
      (argU m c) (w1Hi m c) (ix2 j n) = _
    rw [Cert.Lib.dotGeneral_plain_apply _ rfl rfl rfl rfl rfl rfl]
    exact Finset.sum_congr rfl fun l _ => congrArg (argU m c (ix2 j l) * ·)
      (slice2_axis0_apply 128 (argW1 m c) slices_S192x256_S64x256_128_0 l n ⟨128 + l.val, by omega⟩ rfl)

/-- The first bias as a row. -/
theorem bias1_apply (c : Dev nD) (n : Fin 256) :
    (V m c main_v8 : S1x256.Idx → EReal) (ix2 (0 : Fin 1) n) = argB1 m c (ix1 n) := by
  have e : (V m c main_v8 : S1x256.Idx → EReal) = shapeCast S1x256 (argB1 m c) shapeCasts_S256_S1x256 := by
    dsimp only [Gen.V, Gen.hostOps0]; after_results; rfl
  rw [e]
  exact shapeCast_a_1a_apply _ _ _ n

/-- The second bias as a row. -/
theorem bias2_apply (c : Dev nD) (n : Fin 256) :
    (V m c main_v9 : S1x256.Idx → EReal) (ix2 (0 : Fin 1) n) = argB2 m c (ix1 n) := by
  have e : (V m c main_v9 : S1x256.Idx → EReal) = shapeCast S1x256 (argB2 m c) shapeCasts_S256_S1x256 := by
    dsimp only [Gen.V, Gen.hostOps0]; after_results; rfl
  rw [e]
  exact shapeCast_a_1a_apply _ _ _ n

/-- The third bias as a row. -/
theorem bias3_apply (c : Dev nD) (n : Fin 128) :
    (V m c main_v10 : S1x128.Idx → EReal) (ix2 (0 : Fin 1) n) = argB3 m c (ix1 n) := by
  have e : (V m c main_v10 : S1x128.Idx → EReal) = shapeCast S1x128 (argB3 m c) shapeCasts_S128_S1x128 := by
    dsimp only [Gen.V, Gen.hostOps0]; after_results; rfl
  rw [e]
  exact shapeCast_a_1a_apply _ _ _ n

/-- The second weight, format changed: the same numbers. -/
theorem weight2_apply (c : Dev nD) (j k : Fin 256) :
    (V m c main_v6 : S256x256.Idx → EReal) (ix2 j k) = argW2 m c (ix2 j k) := by
  have e : (V m c main_v6 : S256x256.Idx → EReal) = fun i => argW2 m c i := by
    dsimp only [Gen.V, Gen.hostOps0]; after_results; rfl
  rw [e]

/-- The third weight, format changed: the same numbers. -/
theorem weight3_apply (c : Dev nD) (k : Fin 256) (n : Fin 128) :
    (V m c main_v7 : S256x128.Idx → EReal) (ix2 k n) = argW3 m c (ix2 k n) := by
  have e : (V m c main_v7 : S256x128.Idx → EReal) = fun i => argW3 m c i := by
    dsimp only [Gen.V, Gen.hostOps0]; after_results; rfl
  rw [e]

end Cert.KernelIdeal.NodeModel

end
-- ==== Proof.KernelValue.lean ====
/-
  The kernel's result array is the node model `G` of the argument arrays.

  Grid point `t` of 25 stages rows `8000·t … 8000·t + 7999` of `x` and of the result, and the whole of every other
  array; the body loads row `t` of the batch table. So each block the body loads is the matching piece of the
  program's arguments (through what the host part prepared), the value the body stores is `G` on the point's rows,
  and, the 25 row blocks covering the array, the result array after the run is `G` everywhere — wherever every
  batch word lies in `[0, 64)`.
-/
import proofs.«406209_j34239479283983_3_alg».proof.Proof.Gen.KernelIdeal.Value
import proofs.«406209_j34239479283983_3_alg».proof.Proof.KernelPiece
import proofs.«406209_j34239479283983_3_alg».proof.Proof.KernelPoint
import proofs.«406209_j34239479283983_3_alg».proof.Proof.KernelHost
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.NodeModel

open Cert.KernelIdeal Cert.KernelIdeal.Gen Cert.NodeModel

variable (m : (ℓ : Loc nD τ sig) → Buf (Elt Ideal) ℓ) (ρ : Dev nD → PrngReg)

/-- The node model of the program's arguments on core `c`. -/
abbrev Gm (c : Dev nD) : S200000x128.Idx → EReal :=
  G (argX m c) (argU m c) (argBT m c) (argW1 m c) (argB1 m c) (argW2 m c) (argB2 m c) (argW3 m c) (argB3 m c)

/-! ## The index maps, decided over the 25 grid points -/

/-- `x` and the result move one row block per point; every other window stays on its whole array; the point's grid
    coordinate is its number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ ((grid0.coords t) 0).val = t.val :=
  (by decide +kernel : ∀ t : Fin grid0.N, _)

theorem lt_N (t : Fin cfg0.N) : t.val < 25 := lt_of_lt_of_eq t.isLt N_0

/-! ## The blocks -/

/-- Window 0's block at point `t`: rows `8000·t + p` of `x`. -/
theorem block_x (c : Dev nD) (t : Fin cfg0.N) (p : Fin 8000) (k : Fin 128) :
    (iblk m c 0 t : Vec Ideal S8000x128 .f32) (ix2 p k) = argX m c (ix2 (rowOf t.val (lt_N t) p) k) := by
  have hi := idx_facts t
  unfold iblk
  rw [View.read_apply]
  show V m c main_arg0 _ = _
  rw [V_main_arg0]
  refine congrArg (m ((c : Thread nD τ).loc main_arg0) : S200000x128.Idx → EReal) ?_
  funext a
  apply Fin.ext
  match a with
  | ⟨0, _⟩ => show win0_0.index t 0 * 8000 + 1 * p.val = t.val * 8000 + p.val; rw [hi.1]; omega
  | ⟨1, _⟩ => show win0_0.index t 1 * 128 + 1 * k.val = k.val; rw [hi.2.1]; omega

/-- The row of the batch table the body loads at point `t` is row `t` of the table. -/
theorem block_row (c : Dev nD) (t : Fin cfg0.N) (p : Fin 8000) :
    batchRow (grid0.coords t) (iblk m c 1 t : Vec Ideal S25x8000 .i32) (ix2 (0 : Fin 1) p)
      = (V m c main_v0 : S25x8000.Idx → BitVec 32) (ix2 (⟨t.val, lt_N t⟩ : Fin 25) p) := by
  have hi := idx_facts t
  have hk0 : k0_off1 (grid0.coords t) (0 : Fin 2) = ((grid0.coords t) 0).val := congrFun (k0_off1_eq (grid0.coords t)) 0
  have hk1 : k0_off1 (grid0.coords t) (1 : Fin 2) = 0 := congrFun (k0_off1_eq (grid0.coords t)) 1
  unfold batchRow iblk
  show (V m c main_v0 : S25x8000.Idx → BitVec 32) _ = _
  refine congrArg (V m c main_v0 : S25x8000.Idx → BitVec 32) ?_
  funext a
  apply Fin.ext
  match a with
  | ⟨0, _⟩ =>
    show win0_1.index t 0 * 25 + 1 * (k0_off1 (grid0.coords t) 0 + 1 * 0) = t.val
    rw [hi.2.2.1, hk0, hi.2.2.2.2.2.2.2.2.2.2.2.2.2.2.2.2.2.2]; omega
  | ⟨1, _⟩ =>
    show win0_1.index t 1 * 8000 + 1 * (k0_off1 (grid0.coords t) 1 + 1 * p.val) = p.val
    rw [hi.2.2.2.1, hk1]; omega

/-- Window 2's block is the whole first-layer weight the host part prepared. -/
theorem block_w1 (c : Dev nD) (t : Fin cfg0.N) (a : Fin 192) (b : Fin 256) :
    (iblk m c 2 t : FVec Ideal S192x256 .bf16) (ix2 a b) = (V m c main_v5 : S192x256.Idx → EReal) (ix2 a b) := by
  have hi := idx_facts t
  unfold iblk
  rw [View.read_apply]
  show (V m c main_v5 : S192x256.Idx → EReal) _ = _
  refine congrArg (V m c main_v5 : S192x256.Idx → EReal) ?_
  funext ax
  apply Fin.ext
  match ax with
  | ⟨0, _⟩ => show win0_2.index t 0 * 192 + 1 * a.val = a.val; rw [hi.2.2.2.2.1]; omega
  | ⟨1, _⟩ => show win0_2.index t 1 * 256 + 1 * b.val = b.val; rw [hi.2.2.2.2.2.1]; omega

/-- Window 3's block is the first bias row. -/
theorem block_b1 (c : Dev nD) (t : Fin cfg0.N) (a : Fin 1) (b : Fin 256) :
    (iblk m c 3 t : Vec Ideal S1x256 .f32) (ix2 a b) = (V m c main_v8 : S1x256.Idx → EReal) (ix2 a b) := by
  have hi := idx_facts t
  unfold iblk
  rw [View.read_apply]
  show (V m c main_v8 : S1x256.Idx → EReal) _ = _
  refine congrArg (V m c main_v8 : S1x256.Idx → EReal) ?_
  funext ax
  apply Fin.ext
  match ax with
  | ⟨0, _⟩ => show win0_3.index t 0 * 1 + 1 * a.val = a.val; rw [hi.2.2.2.2.2.2.1]; omega
  | ⟨1, _⟩ => show win0_3.index t 1 * 256 + 1 * b.val = b.val; rw [hi.2.2.2.2.2.2.2.1]; omega

/-- Window 4's block is the whole second weight. -/
theorem block_w2 (c : Dev nD) (t : Fin cfg0.N) (a : Fin 256) (b : Fin 256) :
    (iblk m c 4 t : FVec Ideal S256x256 .bf16) (ix2 a b) = (V m c main_v6 : S256x256.Idx → EReal) (ix2 a b) := by
  have hi := idx_facts t
  unfold iblk
  rw [View.read_apply]
  show (V m c main_v6 : S256x256.Idx → EReal) _ = _
  refine congrArg (V m c main_v6 : S256x256.Idx → EReal) ?_
  funext ax
  apply Fin.ext
  match ax with
  | ⟨0, _⟩ => show win0_4.index t 0 * 256 + 1 * a.val = a.val; rw [hi.2.2.2.2.2.2.2.2.1]; omega
  | ⟨1, _⟩ => show win0_4.index t 1 * 256 + 1 * b.val = b.val; rw [hi.2.2.2.2.2.2.2.2.2.1]; omega

/-- Window 5's block is the second bias row. -/
theorem block_b2 (c : Dev nD) (t : Fin cfg0.N) (a : Fin 1) (b : Fin 256) :
    (iblk m c 5 t : Vec Ideal S1x256 .f32) (ix2 a b) = (V m c main_v9 : S1x256.Idx → EReal) (ix2 a b) := by
  have hi := idx_facts t
  unfold iblk
  rw [View.read_apply]
  show (V m c main_v9 : S1x256.Idx → EReal) _ = _
  refine congrArg (V m c main_v9 : S1x256.Idx → EReal) ?_
  funext ax
  apply Fin.ext
  match ax with
  | ⟨0, _⟩ => show win0_5.index t 0 * 1 + 1 * a.val = a.val; rw [hi.2.2.2.2.2.2.2.2.2.2.1]; omega
  | ⟨1, _⟩ => show win0_5.index t 1 * 256 + 1 * b.val = b.val; rw [hi.2.2.2.2.2.2.2.2.2.2.2.1]; omega

/-- Window 6's block is the whole third weight. -/
theorem block_w3 (c : Dev nD) (t : Fin cfg0.N) (a : Fin 256) (b : Fin 128) :
    (iblk m c 6 t : FVec Ideal S256x128 .bf16) (ix2 a b) = (V m c main_v7 : S256x128.Idx → EReal) (ix2 a b) := by
  have hi := idx_facts t
  unfold iblk
  rw [View.read_apply]
  show (V m c main_v7 : S256x128.Idx → EReal) _ = _
  refine congrArg (V m c main_v7 : S256x128.Idx → EReal) ?_
  funext ax
  apply Fin.ext
  match ax with
  | ⟨0, _⟩ => show win0_6.index t 0 * 256 + 1 * a.val = a.val; rw [hi.2.2.2.2.2.2.2.2.2.2.2.2.1]; omega
  | ⟨1, _⟩ => show win0_6.index t 1 * 128 + 1 * b.val = b.val; rw [hi.2.2.2.2.2.2.2.2.2.2.2.2.2.1]; omega

/-- Window 7's block is the third bias row. -/
theorem block_b3 (c : Dev nD) (t : Fin cfg0.N) (a : Fin 1) (b : Fin 128) :
    (iblk m c 7 t : Vec Ideal S1x128 .f32) (ix2 a b) = (V m c main_v10 : S1x128.Idx → EReal) (ix2 a b) := by
  have hi := idx_facts t
  unfold iblk
  rw [View.read_apply]
  show (V m c main_v10 : S1x128.Idx → EReal) _ = _
  refine congrArg (V m c main_v10 : S1x128.Idx → EReal) ?_
  funext ax
  apply Fin.ext
  match ax with
  | ⟨0, _⟩ => show win0_7.index t 0 * 1 + 1 * a.val = a.val; rw [hi.2.2.2.2.2.2.2.2.2.2.2.2.2.2.1]; omega
  | ⟨1, _⟩ => show win0_7.index t 1 * 128 + 1 * b.val = b.val; rw [hi.2.2.2.2.2.2.2.2.2.2.2.2.2.2.2.1]; omega

/-! ## What a point writes back, and the array -/

/-- WHAT POINT `t` WRITES BACK is block `t` of `G` of the arguments. -/
theorem flushed_eq (hb : ∀ (c : Dev nD) (r : Fin 200000), (argBT m c (ix1 r)).toNat < 64) (c : Dev nD) (t : Fin cfg0.N) :
    (dats m 0 c).flushed 8 t = ((cfg0.win 8).blk t).view.read (Elt Ideal) (Gm m c) := by
  have hi := idx_facts t
  rw [Cert.KernelIdeal.Value.flushed8_A, out_eq]
  funext j
  obtain ⟨p, q, rfl⟩ : ∃ (p : Fin 8000) (q : Fin 128), j = ix2 p q :=
    ⟨⟨(j 0).val, (j 0).isLt⟩, ⟨(j 1).val, (j 1).isLt⟩, funext fun a => by match a with | ⟨0, _⟩ => rfl | ⟨1, _⟩ => rfl⟩
  rw [View.read_apply]
  show k0_pay1 (iblk m c 0 t : Vec Ideal S8000x128 .f32)
      (k0_pay2 (iblk m c 0 t : Vec Ideal S8000x128 .f32) (batchRow (grid0.coords t) (iblk m c 1 t : Vec Ideal S25x8000 .i32))
        (iblk m c 2 t : FVec Ideal S192x256 .bf16) (iblk m c 3 t : Vec Ideal S1x256 .f32) (iblk m c 4 t : FVec Ideal S256x256 .bf16)
        (iblk m c 5 t : Vec Ideal S1x256 .f32) (iblk m c 6 t : FVec Ideal S256x128 .bf16))
      (k0_pay3 (iblk m c 7 t : Vec Ideal S1x128 .f32)) (ix2 p q) = Gm m c _
  refine (point_value (argX m c) (argU m c) (argBT m c) (argW1 m c) (argB1 m c) (argW2 m c) (argB2 m c) (argW3 m c) (argB3 m c) (hb c)
    (iblk m c 0 t : Vec Ideal S8000x128 .f32) (batchRow (grid0.coords t) (iblk m c 1 t : Vec Ideal S25x8000 .i32))
    (iblk m c 2 t : FVec Ideal S192x256 .bf16) (iblk m c 3 t : Vec Ideal S1x256 .f32) (iblk m c 4 t : FVec Ideal S256x256 .bf16)
    (iblk m c 5 t : Vec Ideal S1x256 .f32) (iblk m c 6 t : FVec Ideal S256x128 .bf16) (iblk m c 7 t : Vec Ideal S1x128 .f32)
    t.val (lt_N t)
    (fun p k => block_x m c t p k)
    (fun p => (block_row m c t p).trans (table_apply m c ⟨t.val, lt_N t⟩ p (rowOf t.val (lt_N t) p) rfl))
    (fun k n => (block_w1 m c t ⟨k.val, by omega⟩ n).trans (weight1_lo m c k n))
    (fun j n => (block_w1 m c t ⟨128 + j.val, by omega⟩ n).trans (weight1_hi m c j n))
    (fun n => (block_b1 m c t 0 n).trans (bias1_apply m c n))
    (fun j k => (block_w2 m c t j k).trans (weight2_apply m c j k))
    (fun k => (block_b2 m c t 0 k).trans (bias2_apply m c k))
    (fun k n => (block_w3 m c t k n).trans (weight3_apply m c k n))
    (fun n => (block_b3 m c t 0 n).trans (bias3_apply m c n))
    p q).trans ?_
  refine congrArg (Gm m c) ?_
  funext a
  apply Fin.ext
  match a with
  | ⟨0, _⟩ => show t.val * 8000 + p.val = win0_8.index t 0 * 8000 + 1 * p.val; rw [hi.2.2.2.2.2.2.2.2.2.2.2.2.2.2.2.2.1]; omega
  | ⟨1, _⟩ => show q.val = win0_8.index t 1 * 128 + 1 * q.val; rw [hi.2.2.2.2.2.2.2.2.2.2.2.2.2.2.2.2.2.1]; omega

/-- THE RESULT ARRAY after the run: the 25 row blocks cover it, so it is `G` of the arguments. -/
theorem final (hb : ∀ (c : Dev nD) (r : Fin 200000), (argBT m c (ix1 r)).toNat < 64) (c : Dev nD) :
    (dats m 0 c).arrAt 8 cfg0.N = Gm m c :=
  (dats m 0 c).arrAt_eq_of_cover 8 (Gm m c) (fun t _ => flushed_eq m hb c t) fun i => by
    have hi0 : (i 0).val < 200000 := (i 0).isLt
    have hi1 : (i 1).val < 128 := (i 1).isLt
    -- the point whose row block holds row `i 0`
    obtain ⟨t, ht⟩ : ∃ t : Fin cfg0.N, t.val = (i 0).val / 8000 :=
      ⟨⟨(i 0).val / 8000, lt_of_lt_of_eq (by omega : (i 0).val / 8000 < 25) N_0.symm⟩, rfl⟩
    have hi := idx_facts t
    refine ⟨t, flush0_8 t, ?_⟩
    show i ∈ ((View.whole main_v11).slice (win0_8.rect t)).set
    rw [View.set_slice_whole, Rect.mem_set_unit]
    intro a
    match a with
    | ⟨0, _⟩ =>
      show win0_8.index t 0 * 8000 ≤ (i 0).val ∧ (i 0).val < win0_8.index t 0 * 8000 + 8000
      rw [hi.2.2.2.2.2.2.2.2.2.2.2.2.2.2.2.2.1, ht]
      omega
    | ⟨1, _⟩ =>
      show win0_8.index t 1 * 128 ≤ (i 1).val ∧ (i 1).val < win0_8.index t 1 * 128 + 128
      rw [hi.2.2.2.2.2.2.2.2.2.2.2.2.2.2.2.2.2.1]
      omega

/-- THE RUN, READ: the result array ends at `G` of the arguments, the arguments unchanged. -/
theorem run (hb : ∀ (c : Dev nD) (r : Fin 200000), (argBT m c (ix1 r)).toNat < 64) :
    θ_run defs (onTc (τ := τ) (main (F := Ideal))) ⟨m, fun _ => 0, ρ⟩ fun r => ∀ c : Dev nD,
      r.2.mem ((c : Thread nD τ).loc main_v11) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m hb c), (h c).2⟩)
    (Cert.KernelIdeal.Value.run_blocks m ρ)

end Cert.KernelIdeal.NodeModel

end
-- ==== Proof.LibTakeRows.lean ====
/-
  A general lemma: `stablehlo.gather` of whole rows of a rank-2 operand, read at an index.

  What `x[idx]` of a table `x : [N, C]` at a vector of row indices lowers to: offset_dims `[1]`,
  collapsed_slice_dims `[0]`, start_index_map `[0]`, index_vector_dim `1` and slice_sizes `[1, C]` over the indices
  as `[E, 1]`. Result element `(e, k)` is the operand at row `idx[e, 0]` — read as a signed integer and clamped into
  `[0, N - 1]`, as the gather clamps every start index — and column `k`. Stated for any record with those dimension
  numbers, whatever sizes `N`, `C`, `E` and word width.
-/
import Idealize.ShloMosaic.PureOps.Ideal
import Idealize.ShloMosaic.Lib.ValueIdx

noncomputable section

namespace Cert.Lib

open Idealize.ShloMosaic Idealize.ShloMosaic.ValueIdx

namespace TakeRows

/-- Those dimension numbers as a literal record, for an operand `[N, C]`, start indices `[E, 1]` and result `[E, C]`;
    `wf` are their conditions. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather of the literal record at `(e, k)`. Axis 0 of the operand is collapsed and start-mapped: its
    coordinate is the clamped start index, with no batching and no offset part. Axis 1 is the one offset axis: its start
    is `0` (it is not start-mapped) and its offset coordinate is the result's coordinate `k`. -/
theorem gather_rowDims_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    -- the start-indices index read for component 0 of the start index of `(e, k)` is `[e, 0]`
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show ¬ (1 : Fin 2) ∈ (rowDims N C E wf).startIndexMap from
      fun h => absurd (List.mem_singleton.mp h) (by decide : ¬ (1 : Fin 2) = 0))]
    unfold GatherDims.offCoord
    rw [dif_pos (show (1 : Fin 2) ∈ (rowDims N C E wf).sKept from (GatherDims.mem_sKept _ _).mpr
      ⟨fun h => absurd (List.mem_singleton.mp h) (by decide : ¬ (1 : Fin 2) = 0), List.not_mem_nil⟩)]
    simp only [Nat.add_zero, Nat.zero_add]
    rfl

end TakeRows

open TakeRows

/-- THE ROW GATHER READ AT `(e, k)`: the operand at the start index `idx[e, 0]`, read signed and clamped into
    `[0, N - 1]`, column `k`. -/
theorem gather_rows_apply {α : Type} {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k) = x (ix2 ⟨min (idx (ix2 e 0)).toInt.toNat (N - 1), by omega⟩ k) := by
  -- a record with these fields is the literal one
  obtain ⟨od, cs, ob, sb, sm, iv, ss, wf⟩ := d
  simp only at h1 h2 h3 h4 h5 h6 h7
  subst h1 h2 h3 h4 h5 h6 h7
  exact gather_rowDims_apply hN wf x idx e k

end Cert.Lib

end
-- ==== Proof.RefSide.lean ====
/-
  The reference program's result is the node model `G`.

  For every node `r` the reference gathers row `batch[r]` of the graph features `u`, joins it to the node's own
  features along the feature axis, sends the 192 numbers through three dense layers with a clamp at zero after the first
  two, and adds the node's features. Read one element at a time, every stage is the matching piece of `G`:

  * the gather's start index is the batch word wrapped once (`batch[r] + 64` where it is negative) and clamped into
    `[0, 63]`; for a word in `[0, 64)` neither changes it, so the row read is row `graphOf batch r`;
  * the joined row at `(r, k)` is `x[r, k]` below 128 and the gathered row at `k - 128` from there on: `featRow`;
  * a dense layer's element is the sum over the contracted axis, plus the bias, clamped where the program clamps:
    `hiddenF`, then the two layers inside `tailF`.

  The clamp's zero stays the word it is printed as on both sides; no entry has to be finite.
-/
import proofs.«406209_j34239479283983_3_alg».proof.Proof.Gen.ReferenceIdeal.Read
import proofs.«406209_j34239479283983_3_alg».proof.Proof.Spec
import proofs.«406209_j34239479283983_3_alg».proof.Proof.LibTakeRows
import Idealize.ShloMosaic.Lib.Pipeline.Value
import Idealize.ShloMosaic.Lib.ValueIdx
import Idealize.ShloMosaic.PureOps.Ideal.Laws

noncomputable section

namespace Cert.NodeModel.Ref

open Cert.ReferenceIdeal Cert.ReferenceIdeal.Gen Cert.ReferenceIdeal.Read Cert.NodeModel
open Idealize.ShloMosaic Idealize.ShloMosaic.ValueIdx

/-! ## The batch word -/

/-- A word below 64 read as a signed integer is its value: its top bit is clear. -/
theorem word_toInt (w : BitVec 32) (hw : w.toNat < 64) : w.toInt = (w.toNat : Int) := by
  rw [BitVec.toInt_eq_toNat_cond]
  split
  · rfl
  · omega

/-- A word below 64 is not negative: the signed comparison with zero answers no. -/
theorem word_not_neg (w : BitVec 32) (hw : w.toNat < 64) : IntOp.cmpi .slt w 0#32 = 0#1 := by
  have hs : w.slt 0#32 = false := by
    simp only [BitVec.slt, word_toInt w hw]
    simp
  unfold IntOp.cmpi
  simp only [hs]
  rfl

/-- THE ROW A WORD NAMES. For a word below 64 the wrap (add 64 where negative) leaves it alone, read signed it is its
    value, and the clamp into `[0, 63]` leaves that alone too: the row is the word's value, which is also its
    remainder by 64. -/
theorem word_row (w : BitVec 32) (hw : w.toNat < 64) :
    min (Scalar.select (IntOp.cmpi .slt w 0#32) (IntOp.addi w 64#32) w).toInt.toNat (64 - 1) = w.toNat % 64 := by
  rw [word_not_neg w hw, select_zero, word_toInt w hw]
  omega

/-! ## The start indices and the gather -/

/-- The start index of node `r`: the batch word, plus 64 where it is negative. -/
theorem v5_at (x4 : (⟨S200000, .i32⟩ : BufTy).Contents (Elt Ideal)) (r : Fin 200000) :
    val_main_v5 (F := Ideal) x4 (ix2 r (0 : Fin 1))
      = Scalar.select (IntOp.cmpi .slt (x4 (ix1 r)) 0#32) (IntOp.addi (x4 (ix1 r)) 64#32) (x4 (ix1 r)) := by
  have e : idx_main_v5 (ix2 r (0 : Fin 1)) = ix1 r := funext fun a => Fin.ext (by
    match a with
    | ⟨0, _⟩ => rfl)
  rw [val_main_v5_apply, e, val_main_v4_apply, val_main_v1_apply, val_main_v3_apply, val_main_v0_apply,
    val_main_v2_apply, val_main_c_apply, val_main_c_0_apply]

/-- The gathered array at `(r, j)` is entry `j` of the row of `u` that node `r`'s graph names. -/
theorem v6_at (x3 : (⟨S64x64, .f32⟩ : BufTy).Contents (Elt Ideal))
    (x4 : (⟨S200000, .i32⟩ : BufTy).Contents (Elt Ideal))
    (hb : ∀ r : Fin 200000, (x4 (ValueIdx.ix1 r)).toNat < 64) (r : Fin 200000) (j : Fin 64) :
    val_main_v6 (F := Ideal) x3 x4 (ix2 r j) = x3 (ix2 (graphOf x4 r) j) := by
  unfold val_main_v6
  refine (Cert.Lib.gather_rows_apply (N := 64) (C := 64) (E := 200000) (w := 32) (by decide)
    gather_S64x64_S200000x1_S200000x64_1_0_n_n_0_1_164 rfl rfl rfl rfl rfl rfl rfl x3
    (val_main_v5 (F := Ideal) x4) r j).trans ?_
  refine congrArg (fun g : Fin 64 => x3 (ix2 g j)) (Fin.ext ?_)
  show min (val_main_v5 (F := Ideal) x4 (ix2 r (0 : Fin 1))).toInt.toNat (64 - 1) = (x4 (ix1 r)).toNat % 64
  rw [v5_at]
  exact word_row _ (hb r)

/-! ## The joined row -/

/-- Below 128 the joined row is the node's own features. -/
theorem v7_lo (x0 : (⟨S200000x128, .f32⟩ : BufTy).Contents (Elt Ideal))
    (x3 : (⟨S64x64, .f32⟩ : BufTy).Contents (Elt Ideal)) (x4 : (⟨S200000, .i32⟩ : BufTy).Contents (Elt Ideal))
    (r : Fin 200000) (k : Fin 192) (h : k.val < 128) :
    val_main_v7 (F := Ideal) x0 x3 x4 (ix2 r k) = x0 (ix2 r ⟨k.val, h⟩) := by
  unfold val_main_v7
  generalize val_main_v6 (F := Ideal) x3 x4 = y
  exact concatenate_pair_apply_left (1 : Fin S200000x192.rank) x0 y
    concatenates_S200000x128_S200000x64_S200000x192_d1 (ix2 r k) rfl (ix2 r ⟨k.val, h⟩) (fun b => by
      match b with
      | ⟨0, _⟩ => rfl
      | ⟨1, _⟩ => rfl)

/-- From 128 on the joined row is the gathered one, 128 entries back. -/
theorem v7_hi (x0 : (⟨S200000x128, .f32⟩ : BufTy).Contents (Elt Ideal))
    (x3 : (⟨S64x64, .f32⟩ : BufTy).Contents (Elt Ideal)) (x4 : (⟨S200000, .i32⟩ : BufTy).Contents (Elt Ideal))
    (r : Fin 200000) (k : Fin 192) (h : ¬ k.val < 128) :
    val_main_v7 (F := Ideal) x0 x3 x4 (ix2 r k)
      = val_main_v6 (F := Ideal) x3 x4 (ix2 r ⟨k.val - 128, by omega⟩) := by
  unfold val_main_v7
  generalize val_main_v6 (F := Ideal) x3 x4 = y
  exact concatenate_pair_apply_right (1 : Fin S200000x192.rank) x0 y
    concatenates_S200000x128_S200000x64_S200000x192_d1 (ix2 r k) rfl rfl (ix2 r ⟨k.val - 128, by omega⟩)
    (fun b hb => by
      match b with
      | ⟨0, _⟩ => rfl
      | ⟨1, _⟩ => exact absurd rfl hb)
    (by show k.val - 128 + 128 = k.val; omega)

/-- THE FIRST LAYER'S INPUT ROW: the joined row of node `r` is `featRow`. -/
theorem v7_row (x0 : (⟨S200000x128, .f32⟩ : BufTy).Contents (Elt Ideal))
    (x3 : (⟨S64x64, .f32⟩ : BufTy).Contents (Elt Ideal)) (x4 : (⟨S200000, .i32⟩ : BufTy).Contents (Elt Ideal))
    (hb : ∀ r : Fin 200000, (x4 (ValueIdx.ix1 r)).toNat < 64) (r : Fin 200000) (k : Fin 192) :
    val_main_v7 (F := Ideal) x0 x3 x4 (ix2 r k) = featRow x0 x3 x4 r k := by
  unfold featRow
  split
  · next h => exact v7_lo x0 x3 x4 r k h
  · next h => rw [v7_hi x0 x3 x4 r k h, v6_at x3 x4 hb]

/-! ## The three layers -/

/-- The first layer before its clamp, column `n` of node `r`: the row against column `n` of `W1`. -/
theorem v8_at (x0 : (⟨S200000x128, .f32⟩ : BufTy).Contents (Elt Ideal))
    (x3 : (⟨S64x64, .f32⟩ : BufTy).Contents (Elt Ideal)) (x4 : (⟨S200000, .i32⟩ : BufTy).Contents (Elt Ideal))
    (x5 : (⟨S192x256, .f32⟩ : BufTy).Contents (Elt Ideal))
    (hb : ∀ r : Fin 200000, (x4 (ValueIdx.ix1 r)).toNat < 64) (r : Fin 200000) (n : Fin 256) :
    val_main_v8 (F := Ideal) x0 x3 x4 x5 (ix2 r n) = ∑ k : Fin 192, featRow x0 x3 x4 r k * x5 (ix2 k n) := by
  rw [val_main_v8_apply]
  refine Finset.sum_congr rfl fun k _ => ?_
  have el : lidx_main_v8 (ix2 r n) k = ix2 r k := funext fun a => Fin.ext (by
    match a with
    | ⟨0, _⟩ => rfl
    | ⟨1, _⟩ => rfl)
  have er : ridx_main_v8 (ix2 r n) k = ix2 k n := funext fun a => Fin.ext (by
    match a with
    | ⟨0, _⟩ => rfl
    | ⟨1, _⟩ => rfl)
  rw [el, er, v7_row x0 x3 x4 hb]

/-- The first hidden row of node `r` is `hiddenF` of its input row. -/
theorem v12_at (x0 : (⟨S200000x128, .f32⟩ : BufTy).Contents (Elt Ideal))
    (x3 : (⟨S64x64, .f32⟩ : BufTy).Contents (Elt Ideal)) (x4 : (⟨S200000, .i32⟩ : BufTy).Contents (Elt Ideal))
    (x5 : (⟨S192x256, .f32⟩ : BufTy).Contents (Elt Ideal)) (x6 : (⟨S256, .f32⟩ : BufTy).Contents (Elt Ideal))
    (hb : ∀ r : Fin 200000, (x4 (ValueIdx.ix1 r)).toNat < 64) (r : Fin 200000) (n : Fin 256) :
    val_main_v12 (F := Ideal) x0 x3 x4 x5 x6 (ix2 r n)
      = hiddenF (featRow x0 x3 x4 r) (fun k n => x5 (ix2 k n)) (fun n => x6 (ix1 n)) n := by
  have eb : idx_main_v9 (idx_main_v10 (ix2 r n)) = ix1 n := funext fun a => Fin.ext (by
    match a with
    | ⟨0, _⟩ => rfl)
  unfold hiddenF
  rw [val_main_v12_apply, val_main_v11_apply, v8_at x0 x3 x4 x5 hb, val_main_v10_apply, val_main_v9_apply, eb,
    val_main_call0_v0_apply, val_main_call0_cst_apply, Ideal.addf_def, Ideal.maximumf_def, Ideal.ofBits_def]

/-- The second hidden row of node `r`, column `k`: the first hidden row against column `k` of `W2`, plus the bias,
    clamped. -/
theorem v17_at (x0 : (⟨S200000x128, .f32⟩ : BufTy).Contents (Elt Ideal))
    (x3 : (⟨S64x64, .f32⟩ : BufTy).Contents (Elt Ideal)) (x4 : (⟨S200000, .i32⟩ : BufTy).Contents (Elt Ideal))
    (x5 : (⟨S192x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (hb : ∀ r : Fin 200000, (x4 (ValueIdx.ix1 r)).toNat < 64) (r : Fin 200000) (k : Fin 256) :
    val_main_v17 (F := Ideal) x0 x3 x4 x5 x6 x7 x8 (ix2 r k)
      = max ((∑ j : Fin 256,
          hiddenF (featRow x0 x3 x4 r) (fun k n => x5 (ix2 k n)) (fun n => x6 (ix1 n)) j * x7 (ix2 j k))
          + x8 (ix1 k)) zeroF := by
  have eb : idx_main_v14 (idx_main_v15 (ix2 r k)) = ix1 k := funext fun a => Fin.ext (by
    match a with
    | ⟨0, _⟩ => rfl)
  have es : val_main_v13 (F := Ideal) x0 x3 x4 x5 x6 x7 (ix2 r k)
      = ∑ j : Fin 256,
          hiddenF (featRow x0 x3 x4 r) (fun k n => x5 (ix2 k n)) (fun n => x6 (ix1 n)) j * x7 (ix2 j k) := by
    rw [val_main_v13_apply]
    refine Finset.sum_congr rfl fun j _ => ?_
    have el : lidx_main_v13 (ix2 r k) j = ix2 r j := funext fun a => Fin.ext (by
      match a with
      | ⟨0, _⟩ => rfl
      | ⟨1, _⟩ => rfl)
    have er : ridx_main_v13 (ix2 r k) j = ix2 j k := funext fun a => Fin.ext (by
      match a with
      | ⟨0, _⟩ => rfl
      | ⟨1, _⟩ => rfl)
    rw [el, er, v12_at x0 x3 x4 x5 x6 hb]
  rw [val_main_v17_apply, val_main_v16_apply, es, val_main_v15_apply, val_main_v14_apply, eb,
    val_main_call1_v0_apply, val_main_call1_cst_apply, Ideal.addf_def, Ideal.maximumf_def, Ideal.ofBits_def]

/-! ## The result -/

/-- THE REFERENCE'S RESULT IS `G`, where every batch word lies in `[0, 64)`. -/
theorem ref_eq_G
    (x0 : (⟨S200000x128, .f32⟩ : BufTy).Contents (Elt Ideal)) (x3 : (⟨S64x64, .f32⟩ : BufTy).Contents (Elt Ideal))
    (x4 : (⟨S200000, .i32⟩ : BufTy).Contents (Elt Ideal)) (x5 : (⟨S192x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x128, .f32⟩ : BufTy).Contents (Elt Ideal))
    (x10 : (⟨S128, .f32⟩ : BufTy).Contents (Elt Ideal))
    (hb : ∀ r : Fin 200000, (x4 (ValueIdx.ix1 r)).toNat < 64) :
    Cert.ReferenceIdeal.Read.val_main_v22 (F := Ideal) x0 x3 x4 x5 x6 x7 x8 x9 x10
      = Cert.NodeModel.G x0 x3 x4 x5 x6 x7 x8 x9 x10 := by
  funext i
  obtain ⟨r, n, rfl⟩ : ∃ (r : Fin 200000) (n : Fin 128), i = ix2 r n :=
    ⟨⟨(i 0).val, idx2_lt0 i⟩, ⟨(i 1).val, idx2_lt1 i⟩, eq_ix2 i⟩
  have eb : idx_main_v19 (idx_main_v20 (ix2 r n)) = ix1 n := funext fun a => Fin.ext (by
    match a with
    | ⟨0, _⟩ => rfl)
  have es : val_main_v18 (F := Ideal) x0 x3 x4 x5 x6 x7 x8 x9 (ix2 r n)
      = ∑ k : Fin 256, max ((∑ j : Fin 256,
          hiddenF (featRow x0 x3 x4 r) (fun k n => x5 (ix2 k n)) (fun n => x6 (ix1 n)) j * x7 (ix2 j k))
          + x8 (ix1 k)) zeroF * x9 (ix2 k n) := by
    rw [val_main_v18_apply]
    refine Finset.sum_congr rfl fun k _ => ?_
    have el : lidx_main_v18 (ix2 r n) k = ix2 r k := funext fun a => Fin.ext (by
      match a with
      | ⟨0, _⟩ => rfl
      | ⟨1, _⟩ => rfl)
    have er : ridx_main_v18 (ix2 r n) k = ix2 k n := funext fun a => Fin.ext (by
      match a with
      | ⟨0, _⟩ => rfl
      | ⟨1, _⟩ => rfl)
    rw [el, er, v17_at x0 x3 x4 x5 x6 x7 x8 hb]
  rw [G_ix2]
  unfold tailF
  rw [val_main_v22_apply, val_main_v21_apply, es, val_main_v20_apply, val_main_v19_apply, eb,
    Ideal.addf_def, Ideal.addf_def]

end Cert.NodeModel.Ref

end
-- ==== Proof.PreDecode.lean ====
/-
  The precondition gives the batch range.

  The claim's precondition is a conjunction of tests on the eleven argument arrays, each a test of every entry of
  one array, joined by `and` into one bit; the claim speaks where that bit is 1. The last conjunct tests the batch
  vector: every entry `b` has `0 ≤ b` and `b < 64`, both read as signed 32-bit words. A conjunction that is 1 has
  both halves 1, an `and` over all entries that is 1 met a 1 at every entry, and a word that is non-negative when
  read signed has the same value read unsigned: so every batch word's value is below 64.
-/
import proofs.«406209_j34239479283983_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Affine
import Idealize.ShloMosaic.PureOps.Ideal

namespace Cert.NodeModel.Pre

open Idealize.ShloMosaic

/-! ## One word -/

/-- A word that is at least 0 and below 64, both read signed, has value below 64: being non-negative its sign bit is
    clear, so its signed and unsigned readings agree. -/
theorem word_range (w : BitVec 32) (h0 : IntOp.cmpi .sge w 0#32 = 1#1) (h1 : IntOp.cmpi .slt w 64#32 = 1#1) :
    w.toNat < 64 := by
  have a : (0#32 : BitVec 32).toInt ≤ w.toInt := IntOp.cmpi_sge.1 h0
  have b : w.toInt < (64#32 : BitVec 32).toInt := IntOp.cmpi_slt.1 h1
  have e0 : (0#32 : BitVec 32).toInt = 0 := by decide
  have e1 : (64#32 : BitVec 32).toInt = 64 := by decide
  rw [e0] at a
  rw [e1] at b
  have hw : w.toNat < 2 ^ 32 := w.isLt
  rw [BitVec.toInt_eq_toNat_cond] at a b
  split at a <;> omega

/-! ## Reading the operations at one index -/

/-- An elementwise `and` of two bit vectors that is 1 at an index has both operands 1 there. -/
theorem andi_at {s : Shape} (x y : IVec s 1) (i : s.Idx) (h : andi x y i = 1#1) : x i = 1#1 ∧ y i = 1#1 :=
  IntOp.andi_eq_one.1 h

/-- An elementwise comparison against a broadcast scalar constant, read at an index, compares the entry there with
    the constant. -/
theorem cmpi_const_at {t : Shape} (p : CmpIPredicate) (x : IVec t 32)
    (hb : Cert.Pre_finite_inputs.S_.BroadcastsInDim t (![] : Fin 0 → Fin t.rank)) (c : BitVec 32) (i : t.Idx)
    (h : cmpi p x (broadcastInDim t ![] hb (constantI Cert.Pre_finite_inputs.S_ 32 c)) i = 1#1) :
    IntOp.cmpi p (x i) c = 1#1 := h

/-! ## The batch range -/

open Cert.Pre_finite_inputs in
/-- Where the precondition holds every batch word's value is below 64; at any float semantics, since the conjunct
    read here tests integers only. -/
theorem batch_range_of {F : FTy → Type} [FloatOps F] [Facts]
    (a0 : FVec F S200000x128 .f32) (a1 : IVec S2x800000 32)
    (a2 : FVec F S800000x16 .f32) (a3 : FVec F S64x64 .f32)
    (a4 : IVec S200000 32) (a5 : FVec F S192x256 .f32)
    (a6 : FVec F S256 .f32) (a7 : FVec F S256x256 .f32)
    (a8 : FVec F S256 .f32) (a9 : FVec F S256x128 .f32)
    (a10 : FVec F S128 .f32)
    (h : fn (F := F) a0 a1 a2 a3 a4 a5 a6 a7 a8 a9 a10 = fun _ => 1#1) :
    ∀ r : Fin 200000, (a4 (ValueIdx.ix1 r)).toNat < 64 := by
  intro r
  haveI : Subsingleton S_.Idx := ⟨fun a b => funext fun d => d.elim0⟩
  -- the whole conjunction, at the result's one index
  have h0 := congrFun h ValueIdx.ix0
  unfold fn fn_part1 fn_part2 at h0
  dsimp only at h0
  -- its last conjunct: the `and` over all batch entries
  have hall := (andi_at _ _ _ h0).2
  -- at entry `r`
  have hr := andi_at _ _ _ (Host.reduce_andi_all _ _ _ _ _ hall (ValueIdx.ix1 r))
  exact word_range _ (cmpi_const_at _ _ _ _ _ hr.1) (cmpi_const_at _ _ _ _ _ hr.2)

/-- Where the precondition holds, read on the extended reals, every batch word's value is below 64. -/
theorem batch_range [Cert.Pre_finite_inputs.Facts]
    (a0 : FVec Ideal Cert.Pre_finite_inputs.S200000x128 .f32) (a1 : IVec Cert.Pre_finite_inputs.S2x800000 32)
    (a2 : FVec Ideal Cert.Pre_finite_inputs.S800000x16 .f32) (a3 : FVec Ideal Cert.Pre_finite_inputs.S64x64 .f32)
    (a4 : IVec Cert.Pre_finite_inputs.S200000 32) (a5 : FVec Ideal Cert.Pre_finite_inputs.S192x256 .f32)
    (a6 : FVec Ideal Cert.Pre_finite_inputs.S256 .f32) (a7 : FVec Ideal Cert.Pre_finite_inputs.S256x256 .f32)
    (a8 : FVec Ideal Cert.Pre_finite_inputs.S256 .f32) (a9 : FVec Ideal Cert.Pre_finite_inputs.S256x128 .f32)
    (a10 : FVec Ideal Cert.Pre_finite_inputs.S128 .f32)
    (h : Cert.Pre_finite_inputs.fn (F := Ideal) a0 a1 a2 a3 a4 a5 a6 a7 a8 a9 a10 = fun _ => 1#1) :
    ∀ r : Fin 200000, (a4 (ValueIdx.ix1 r)).toNat < 64 :=
  batch_range_of a0 a1 a2 a3 a4 a5 a6 a7 a8 a9 a10 h

end Cert.NodeModel.Pre
-- ==== Proof.lean ====
/-
  A graph network's node model, kernel against reference, over the extended reals.

  Each of 200000 nodes has 128 features `x[r, ·]` and belongs to one of 64 graphs, `batch[r]`, which has 64 global
  features `u[batch[r], ·]`. The reference joins the two rows and sends the 192 numbers through three dense layers,
  192 → 256 → 256 → 128, clamping at zero after the first two, and adds `x[r, ·]` to the result.

  The kernel never gathers. Its host part multiplies `u` by the last 64 rows of `W1` once and puts the product under
  the first 128 rows of `W1`; its body, 8000 nodes at a time, joins each node's features to the INDICATOR row of
  its batch word among the 64 graphs and multiplies by that matrix: the indicator row picks the graph's row of the
  product, which is `u[batch[r], ·] · W1[128:, ·]`. The other two layers and the residual are the reference's. On the
  extended reals a change of float format is the identity, a matrix product is the plain sum of products, a product
  with zero is zero and sums commute and associate, so both programs compute one function `G` of the arguments
  (Proof/Spec.lean) with no entry having to be finite.

  The statement is made under one added condition: every batch word lies in `[0, 64)`, the range of the axis of
  `u` it indexes. Outside it the reference wraps and clamps the index while an indicator row is all zeros, and the
  two results differ; inside it both read row `batch[r]`.

  How the proof is cut: the kernel body's stored value as one term of its loaded blocks (Proof/KernelPiece.lean),
  that value at an index (Proof/KernelPayload.lean) and as `G` on the point's rows (Proof/KernelPoint.lean), what
  the host part prepares (Proof/KernelHost.lean), the blocks, the cover and the run (Proof/KernelValue.lean); the
  reference's result as `G` (Proof/RefSide.lean); the batch range out of the precondition (Proof/PreDecode.lean).
-/
import proofs.«406209_j34239479283983_3_alg».proof.Defs
import proofs.«406209_j34239479283983_3_alg».proof.Proof.Gen.Kernel
import proofs.«406209_j34239479283983_3_alg».proof.Proof.Gen.Kernel.Skeleton
import proofs.«406209_j34239479283983_3_alg».proof.Proof.Gen.Kernel.Launch
import proofs.«406209_j34239479283983_3_alg».proof.Proof.Gen.Kernel.Points
import proofs.«406209_j34239479283983_3_alg».proof.Proof.Gen.Kernel.Frame
import proofs.«406209_j34239479283983_3_alg».proof.Proof.Gen.KernelIdeal
import proofs.«406209_j34239479283983_3_alg».proof.Proof.Gen.KernelIdeal.Skeleton
import proofs.«406209_j34239479283983_3_alg».proof.Proof.Gen.KernelIdeal.Launch
import proofs.«406209_j34239479283983_3_alg».proof.Proof.Gen.KernelIdeal.Points
import proofs.«406209_j34239479283983_3_alg».proof.Proof.Gen.KernelIdeal.Frame
import proofs.«406209_j34239479283983_3_alg».proof.Proof.Gen.ReferenceIdeal
import proofs.«406209_j34239479283983_3_alg».proof.Proof.Gen.Pre_finite_inputs
import proofs.«406209_j34239479283983_3_alg».proof.Proof.Gen.KernelIdeal.Value
import proofs.«406209_j34239479283983_3_alg».proof.Proof.Gen.ReferenceIdeal.Run
import proofs.«406209_j34239479283983_3_alg».proof.Proof.Gen.ReferenceIdeal.Read
import proofs.«406209_j34239479283983_3_alg».proof.Proof.KernelValue
import proofs.«406209_j34239479283983_3_alg».proof.Proof.RefSide
import proofs.«406209_j34239479283983_3_alg».proof.Proof.PreDecode
import Idealize.ShloMosaic.Adequacy
import Idealize.ShloMosaic.Init

noncomputable section

namespace Cert.Proof

open Idealize.ShloMosaic Idealize.SL.Sem

/-- The kernel as printed runs to its end and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Where the precondition holds both programs end with `G` of the arguments: the kernel block by block, the
    reference stage by stage, the batch words in `[0, 64)` by the precondition's last conjunct. -/
theorem algebraic : Cert.algebraic_KernelIdeal_ReferenceIdeal := by
  intro m ρ m' ρ' hpre hagree
  have hb : ∀ (c : Dev Cert.KernelIdeal.nD) (r : Fin 200000),
      (Cert.KernelIdeal.NodeModel.argBT m c (ValueIdx.ix1 r)).toNat < 64 :=
    fun c r => Cert.NodeModel.Pre.batch_range _ _ _ _ _ _ _ _ _ _ _ (hpre c) r
  refine ⟨fun c => Cert.KernelIdeal.NodeModel.Gm m c, Cert.KernelIdeal.NodeModel.run m ρ hb, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v22_eq, e0, e3, e4, e5, e6, e7, e8, e9, e10]
  exact Cert.NodeModel.Ref.ref_eq_G _ _ _ _ _ _ _ _ _ (hb c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
